-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1433 : Shape := ⟨2, ![100000, 1433]⟩
abbrev S1600000 : Shape := ⟨1, ![1600000]⟩
abbrev S1433x140 : Shape := ⟨2, ![1433, 140]⟩
abbrev S140 : Shape := ⟨1, ![140]⟩
abbrev S140x7 : Shape := ⟨2, ![140, 7]⟩
abbrev S7 : Shape := ⟨1, ![7]⟩
abbrev S_ : Shape := ⟨0, ![]⟩

class Facts : Prop where
  bcast_S_S100000x1433 : S_.BroadcastsInDim S100000x1433 (![] : Fin 0 → Fin S100000x1433.rank)
  reducesTo_S100000x1433_S_d0_1 : S100000x1433.ReducesTo [0, 1] S_
  h_S_ : 0 < S_.numel
  bcast_S_S1433x140 : S_.BroadcastsInDim S1433x140 (![] : Fin 0 → Fin S1433x140.rank)
  reducesTo_S1433x140_S_d0_1 : S1433x140.ReducesTo [0, 1] S_
  bcast_S_S140 : S_.BroadcastsInDim S140 (![] : Fin 0 → Fin S140.rank)
  reducesTo_S140_S_d0 : S140.ReducesTo [0] S_
  bcast_S_S140x7 : S_.BroadcastsInDim S140x7 (![] : Fin 0 → Fin S140x7.rank)
  reducesTo_S140x7_S_d0_1 : S140x7.ReducesTo [0, 1] S_
  bcast_S_S7 : S_.BroadcastsInDim S7 (![] : Fin 0 → Fin S7.rank)
  reducesTo_S7_S_d0 : S7.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg1 : IVec S1600000 32) (main_arg6 : FVec F S7 .f32) (main_v13 : IVec S_ 1) (main_v16 : IVec S140x7 1) : IVec S_ 1 :=
  let main_c_5 : IVec S_ 1 := constantI S_ 1 1#1
  let main_v17 : IVec S_ 1 := (fun x v => Host.reduce IntOp.andi x v reducesTo_S140x7_S_d0_1 h_S_) main_v16 main_c_5
  let main_v18 : IVec S_ 1 := andi main_v13 main_v17
  let main_v19 : FVec F S7 .f32 := Host.absf main_arg6
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  let main_c_8 : IVec S_ 32 := constantI S_ 32 4294867296#32
  let main_v24 : IVec S1600000 32 := broadcastInDim S1600000 ![] bcast_S_S1600000 main_c_8
  let main_v25 : IVec S1600000 1 := cmpi .sge main_arg1 main_v24
  let main_c_9 : IVec S_ 32 := constantI S_ 32 100000#32
  let main_v26 : IVec S1600000 32 := broadcastInDim S1600000 ![] bcast_S_S1600000 main_c_9
  let main_v27 : IVec S1600000 1 := cmpi .slt main_arg1 main_v26
  let main_v28 : IVec S1600000 1 := andi main_v25 main_v27
  let main_c_10 : IVec S_ 1 := constantI S_ 1 1#1
  let main_v29 : IVec S_ 1 := (fun x v => Host.reduce IntOp.andi x v reducesTo_S1600000_S_d0 h_S_) main_v28 main_c_10
  let main_v30 : IVec S_ 1 := andi main_v23 main_v29
  main_v30

def fn {F : FTy → Type} [FloatOps F] (main_arg0 : FVec F S100000x1433 .f32) (main_arg1 : IVec S1600000 32) (main_arg2 : IVec S1600000 32) (main_arg3 : FVec F S1433x140 .f32) (main_arg4 : FVec F S140 .f32) (main_arg5 : FVec F S140x7 .f32) (main_arg6 : FVec F S7 .f32) : IVec S_ 1 :=
  let main_v0 : FVec F S100000x1433 .f32 := Host.absf main_arg0
  let main_cst : FVec F S_ .f32 := constant S_ .f32 0x7F800000#32
  let main_v1 : FVec F S100000x1433 .f32 := broadcastInDim S100000x1433 ![] bcast_S_S100000x1433 main_cst
  let main_v2 : IVec S100000x1433 1 := cmpf .olt main_v0 main_v1
  let main_c : IVec S_ 1 := constantI S_ 1 1#1
  let main_v3 : IVec S_ 1 := (fun x v => Host.reduce IntOp.andi x v reducesTo_S100000x1433_S_d0_1 h_S_) main_v2 main_c
  let main_v4 : FVec F S1433x140 .f32 := Host.absf main_arg3
  let main_cst_0 : FVec F S_ .f32 := constant S_ .f32 0x7F800000#32
  let main_v5 : FVec F S1433x140 .f32 := broadcastInDim S1433x140 ![] bcast_S_S1433x140 main_cst_0
  let main_v6 : IVec S1433x140 1 := cmpf .olt main_v4 main_v5
  let main_c_1 : IVec S_ 1 := constantI S_ 1 1#1
  let main_v7 : IVec S_ 1 := (fun x v => Host.reduce IntOp.andi x v reducesTo_S1433x140_S_d0_1 h_S_) main_v6 main_c_1
  let main_v8 : IVec S_ 1 := andi main_v3 main_v7
  let main_v9 : FVec F S140 .f32 := Host.absf main_arg4
  let main_cst_2 : FVec F S_ .f32 := constant S_ .f32 0x7F800000#32
  let main_v10 : FVec F S140 .f32 := broadcastInDim S140 ![] bcast_S_S140 main_cst_2
  let main_v11 : IVec S140 1 := cmpf .olt main_v9 main_v10
  let main_c_3 : IVec S_ 1 := constantI S_ 1 1#1
  let main_v12 : IVec S_ 1 := (fun x v => Host.reduce IntOp.andi x v reducesTo_S140_S_d0 h_S_) main_v11 main_c_3
  let main_v13 : IVec S_ 1 := andi main_v8 main_v12
  let main_v14 : FVec F S140x7 .f32 := Host.absf main_arg5
  let main_cst_4 : FVec F S_ .f32 := constant S_ .f32 0x7F800000#32
  let main_v15 : FVec F S140x7 .f32 := broadcastInDim S140x7 ![] bcast_S_S140x7 main_cst_4
  let main_v16 : IVec S140x7 1 := cmpf .olt main_v14 main_v15
  fn_part1 (F := F) main_arg1 main_arg6 main_v13 main_v16
-- ==== Kernel.lean ====
abbrev S100000x1433 : Shape := ⟨2, ![100000, 1433]⟩
abbrev S1600000 : Shape := ⟨1, ![1600000]⟩
abbrev S1433x140 : Shape := ⟨2, ![1433, 140]⟩
abbrev S140 : Shape := ⟨1, ![140]⟩
abbrev S140x7 : Shape := ⟨2, ![140, 7]⟩
abbrev S7 : Shape := ⟨1, ![7]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x140 : Shape := ⟨2, ![100000, 140]⟩
abbrev S1000x1433 : Shape := ⟨2, ![1000, 1433]⟩
abbrev S1000x1 : Shape := ⟨2, ![1000, 1]⟩
abbrev S1000x140 : Shape := ⟨2, ![1000, 140]⟩
abbrev S1 : Shape := ⟨1, ![1]⟩
abbrev S1x1 : Shape := ⟨2, ![1, 1]⟩
abbrev S1600000x140 : Shape := ⟨2, ![1600000, 140]⟩
abbrev S1x140 : Shape := ⟨2, ![1, 140]⟩
abbrev S100000x7 : Shape := ⟨2, ![100000, 7]⟩
abbrev S2000x140 : Shape := ⟨2, ![2000, 140]⟩
abbrev S2000x1 : Shape := ⟨2, ![2000, 1]⟩
abbrev S2000x7 : Shape := ⟨2, ![2000, 7]⟩
abbrev S1600000x7 : Shape := ⟨2, ![1600000, 7]⟩
abbrev S1x7 : Shape := ⟨2, ![1, 7]⟩

abbrev nBuf : Space → Nat
  | .hbm => 100
  | .vmem => 17
  | .smem => 0
  | _ => 0

abbrev bufTy : (tb : Table) → Fin (tcTables nBuf tb) → BufTy
  | .hbm, ⟨0, _⟩ => ⟨S100000x1433, .f32⟩
  | .hbm, ⟨1, _⟩ => ⟨S1600000, .i32⟩
  | .hbm, ⟨2, _⟩ => ⟨S1600000, .i32⟩
  | .hbm, ⟨3, _⟩ => ⟨S1433x140, .f32⟩
  | .hbm, ⟨4, _⟩ => ⟨S140, .f32⟩
  | .hbm, ⟨5, _⟩ => ⟨S140x7, .f32⟩
  | .hbm, ⟨6, _⟩ => ⟨S7, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x140, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1, .i32⟩
  | .hbm, ⟨42, _⟩ => ⟨S_, .i32⟩
  | .hbm, ⟨43, _⟩ => ⟨S1600000x1, .i32⟩
  | .hbm, ⟨44, _⟩ => ⟨S1600000x1, .i1⟩
  | .hbm, ⟨45, _⟩ => ⟨S1x1, .i32⟩
  | .hbm, ⟨46, _⟩ => ⟨S1600000x1, .i32⟩
  | .hbm, ⟨47, _⟩ => ⟨S1600000x1, .i1⟩
  | .hbm, ⟨48, _⟩ => ⟨S1600000x1, .i1⟩
  | .hbm, ⟨49, _⟩ => ⟨S_, .i1⟩
  | .hbm, ⟨50, _⟩ => ⟨S1600000, .i1⟩
  | .hbm, ⟨51, _⟩ => ⟨S1600000x140, .f32⟩
  | .hbm, ⟨52, _⟩ => ⟨S1600000x140, .i1⟩
  | .hbm, ⟨53, _⟩ => ⟨S_, .f32⟩
  | .hbm, ⟨54, _⟩ => ⟨S1600000x140, .f32⟩
  | .hbm, ⟨55, _⟩ => ⟨S1600000x140, .f32⟩
  | .hbm, ⟨56, _⟩ => ⟨S_, .f32⟩
  | .hbm, ⟨57, _⟩ => ⟨S100000x140, .f32⟩
  | .hbm, ⟨58, _⟩ => ⟨S1600000x1, .i32⟩
  | .hbm, ⟨59, _⟩ => ⟨S100000x140, .f32⟩
  | .hbm, ⟨60, _⟩ => ⟨S100000x1, .f32⟩
  | .hbm, ⟨61, _⟩ => ⟨S100000x1, .f32⟩
  | .hbm, ⟨62, _⟩ => ⟨S1x140, .f32⟩
  | .hbm, ⟨63, _⟩ => ⟨S100000x7, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1, .i32⟩
  | .hbm, ⟨73, _⟩ => ⟨S_, .i32⟩
  | .hbm, ⟨74, _⟩ => ⟨S1600000x1, .i32⟩
  | .hbm, ⟨75, _⟩ => ⟨S1600000x1, .i1⟩
  | .hbm, ⟨76, _⟩ => ⟨S1x1, .i32⟩
  | .hbm, ⟨77, _⟩ => ⟨S1600000x1, .i32⟩
  | .hbm, ⟨78, _⟩ => ⟨S1600000x1, .i1⟩
  | .hbm, ⟨79, _⟩ => ⟨S1600000x1, .i1⟩
  | .hbm, ⟨80, _⟩ => ⟨S_, .i1⟩
  | .hbm, ⟨81, _⟩ => ⟨S1600000, .i1⟩
  | .hbm, ⟨82, _⟩ => ⟨S1600000x7, .f32⟩
  | .hbm, ⟨83, _⟩ => ⟨S1600000x7, .i1⟩
  | .hbm, ⟨84, _⟩ => ⟨S_, .f32⟩
  | .hbm, ⟨85, _⟩ => ⟨S1600000x7, .f32⟩
  | .hbm, ⟨86, _⟩ => ⟨S1600000x7, .f32⟩
  | .hbm, ⟨87, _⟩ => ⟨S_, .f32⟩
  | .hbm, ⟨88, _⟩ => ⟨S100000x7, .f32⟩
  | .hbm, ⟨89, _⟩ => ⟨S1600000x1, .i32⟩
  | .hbm, ⟨90, _⟩ => ⟨S100000x7, .f32⟩
  | .hbm, ⟨91, _⟩ => ⟨S100000x1, .f32⟩
  | .hbm, ⟨92, _⟩ => ⟨S100000x7, .f32⟩
  | .hbm, ⟨93, _⟩ => ⟨S100000x7, .f32⟩
  | .hbm, ⟨94, _⟩ => ⟨S1x7, .f32⟩
  | .hbm, ⟨95, _⟩ => ⟨S100000x7, .f32⟩
  | .hbm, ⟨96, _⟩ => ⟨S100000x7, .f32⟩
  | .hbm, ⟨97, _⟩ => ⟨S_, .f32⟩
  | .hbm, ⟨98, _⟩ => ⟨S100000x7, .f32⟩
  | .hbm, ⟨99, _⟩ => ⟨S100000x7, .f32⟩
  | .local _ .vmem, ⟨0, _⟩ => ⟨S1000x1433, .f32⟩
  | .local _ .vmem, ⟨1, _⟩ => ⟨S1000x1433, .f32⟩
  | .local _ .vmem, ⟨2, _⟩ => ⟨S1433x140, .f32⟩
  | .local _ .vmem, ⟨3, _⟩ => ⟨S1000x1, .f32⟩
  | .local _ .vmem, ⟨4, _⟩ => ⟨S1000x1, .f32⟩
  | .local _ .vmem, ⟨5, _⟩ => ⟨S1000x140, .f32⟩
  | .local _ .vmem, ⟨6, _⟩ => ⟨S1000x140, .f32⟩
  | .local _ .vmem, ⟨7, _⟩ => ⟨S2000x140, .f32⟩
  | .local _ .vmem, ⟨8, _⟩ => ⟨S2000x140, .f32⟩
  | .local _ .vmem, ⟨9, _⟩ => ⟨S2000x1, .f32⟩
  | .local _ .vmem, ⟨10, _⟩ => ⟨S2000x1, .f32⟩
  | .local _ .vmem, ⟨11, _⟩ => ⟨S1x140, .f32⟩
  | .local _ .vmem, ⟨12, _⟩ => ⟨S140x7, .f32⟩
  | .local _ .vmem, ⟨13, _⟩ => ⟨S2000x1, .f32⟩
  | .local _ .vmem, ⟨14, _⟩ => ⟨S2000x1, .f32⟩
  | .local _ .vmem, ⟨15, _⟩ => ⟨S2000x7, .f32⟩
  | .local _ .vmem, ⟨16, _⟩ => ⟨S2000x7, .f32⟩
  | _, _ => ⟨S100000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call2_c : Ref sig .tc := ⟨.hbm, 33, rfl⟩
abbrev main_call2_v0 : Ref sig .tc := ⟨.hbm, 34, rfl⟩
abbrev main_call2_v1 : Ref sig .tc := ⟨.hbm, 35, rfl⟩
abbrev main_call2_c_0 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_c_1 : Ref sig .tc := ⟨.hbm, 41, rfl⟩
abbrev main_call2_c_2 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_3 : Ref sig .tc := ⟨.hbm, 49, rfl⟩
abbrev main_call2_v12 : Ref sig .tc := ⟨.hbm, 50, rfl⟩
abbrev main_call2_v13 : Ref sig .tc := ⟨.hbm, 51, rfl⟩
abbrev main_call2_v14 : Ref sig .tc := ⟨.hbm, 52, rfl⟩
abbrev main_call2_cst : Ref sig .tc := ⟨.hbm, 53, rfl⟩
abbrev main_call2_v15 : Ref sig .tc := ⟨.hbm, 54, rfl⟩
abbrev main_v15 : Ref sig .tc := ⟨.hbm, 55, rfl⟩
abbrev main_cst_6 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_call3_c : Ref sig .tc := ⟨.hbm, 64, rfl⟩
abbrev main_call3_v0 : Ref sig .tc := ⟨.hbm, 65, rfl⟩
abbrev main_call3_v1 : Ref sig .tc := ⟨.hbm, 66, rfl⟩
abbrev main_call3_c_0 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_v5 : Ref sig .tc := ⟨.hbm, 71, rfl⟩
abbrev main_call3_c_1 : Ref sig .tc := ⟨.hbm, 72, rfl⟩
abbrev main_call3_c_2 : Ref sig .tc := ⟨.hbm, 73, rfl⟩
abbrev main_call3_v6 : Ref sig .tc := ⟨.hbm, 74, rfl⟩
abbrev main_call3_v7 : Ref sig .tc := ⟨.hbm, 75, rfl⟩
abbrev main_call3_v8 : Ref sig .tc := ⟨.hbm, 76, rfl⟩
abbrev main_call3_v9 : Ref sig .tc := ⟨.hbm, 77, rfl⟩
abbrev main_call3_v10 : Ref sig .tc := ⟨.hbm, 78, rfl⟩
abbrev main_call3_v11 : Ref sig .tc := ⟨.hbm, 79, rfl⟩
abbrev main_call3_c_3 : Ref sig .tc := ⟨.hbm, 80, rfl⟩
abbrev main_call3_v12 : Ref sig .tc := ⟨.hbm, 81, rfl⟩
abbrev main_call3_v13 : Ref sig .tc := ⟨.hbm, 82, rfl⟩
abbrev main_call3_v14 : Ref sig .tc := ⟨.hbm, 83, rfl⟩
abbrev main_call3_cst : Ref sig .tc := ⟨.hbm, 84, rfl⟩
abbrev main_call3_v15 : Ref sig .tc := ⟨.hbm, 85, rfl⟩
abbrev main_v23 : Ref sig .tc := ⟨.hbm, 86, rfl⟩
abbrev main_cst_7 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_call4_cst : Ref sig .tc := ⟨.hbm, 97, rfl⟩
abbrev main_call4_v0 : Ref sig .tc := ⟨.hbm, 98, rfl⟩
abbrev main_v33 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x140 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x140 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x140 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x140 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S140x7 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x7 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S1000x1433_S1000x1433_0_0 : ∀ a, (![0, 0] : Fin 2 → Nat) a + S1000x1433.size a ≤ S1000x1433.size a
  h_S1000x1433 : 0 < S1000x1433.numel
  bitsLt_bf16_f32 : FTy.bits .bf16 < FTy.bits .f32
  inb_S1433x140_S1433x140_0_0 : ∀ a, (![0, 0] : Fin 2 → Nat) a + S1433x140.size a ≤ S1433x140.size a
  h_S1433x140 : 0 < S1433x140.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x140 : S1000x1.Broadcasts S1000x140
  inb_S1000x140_S1000x140_0_0 : ∀ a, (![0, 0] : Fin 2 → Nat) a + S1000x140.size a ≤ S1000x140.size a
  h_S1000x140 : 0 < S1000x140.numel
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x140_0 : S1600000.BroadcastsInDim S1600000x140 (![0] : Fin 1 → Fin S1600000x140.rank)
  bcast_S_S1600000x140 : S_.BroadcastsInDim S1600000x140 (![] : Fin 0 → Fin S1600000x140.rank)
  bcast_S_S100000x140 : S_.BroadcastsInDim S100000x140 (![] : Fin 0 → Fin S100000x140.rank)
  shapeCasts_S140_S1x140 : S140.ShapeCasts S1x140
  inb_S2000x140_S2000x140_0_0 : ∀ a, (![0, 0] : Fin 2 → Nat) a + S2000x140.size a ≤ S2000x140.size a
  h_S2000x140 : 0 < S2000x140.numel
  shapeCasts_S2000x140_S2000x140 : S2000x140.ShapeCasts S2000x140
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x140 : S2000x1.Broadcasts S2000x140
  inb_S1x140_S1x140_0_0 : ∀ a, (![0, 0] : Fin 2 → Nat) a + S1x140.size a ≤ S1x140.size a
  h_S1x140 : 0 < S1x140.numel
  shapeCasts_S1x140_S1x140 : S1x140.ShapeCasts S1x140
  broadcasts_S1x140_S2000x140 : S1x140.Broadcasts S2000x140
  inb_S140x7_S140x7_0_0 : ∀ a, (![0, 0] : Fin 2 → Nat) a + S140x7.size a ≤ S140x7.size a
  h_S140x7 : 0 < S140x7.numel
  broadcasts_S2000x1_S2000x7 : S2000x1.Broadcasts S2000x7
  inb_S2000x7_S2000x7_0_0 : ∀ a, (![0, 0] : Fin 2 → Nat) a + S2000x7.size a ≤ S2000x7.size a
  h_S2000x7 : 0 < S2000x7.numel
  bcast_S1600000_S1600000x7_0 : S1600000.BroadcastsInDim S1600000x7 (![0] : Fin 1 → Fin S1600000x7.rank)
  bcast_S_S1600000x7 : S_.BroadcastsInDim S1600000x7 (![] : Fin 0 → Fin S1600000x7.rank)
  bcast_S_S100000x7 : S_.BroadcastsInDim S100000x7 (![] : Fin 0 → Fin S100000x7.rank)
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S1600000x1_S1600000_n_0_0_1_wf : ScatterDims.WF S100000 S1600000x1 S1600000 [] [0] [0] 1
  dot_S1000x1433_S1433x140_S1000x140_1_0_0_1_n_n_wf : DotDims.WF S1000x1433 S1433x140 S1000x140 [1] [0] [0] [1] [] []
  gather_S100000x140_S1600000x1_S1600000x140_1_0_n_n_0_1_1140_wf : GatherDims.WF S100000x140 S1600000x1 S1600000x140 [1] [0] [] [0] [] 1 ![1, 140]
  scatter_S100000x140_S1600000x1_S1600000x140_1_0_0_1_wf : ScatterDims.WF S100000x140 S1600000x1 S1600000x140 [1] [0] [0] 1
  dot_S2000x140_S140x7_S2000x7_1_0_0_1_n_n_wf : DotDims.WF S2000x140 S140x7 S2000x7 [1] [0] [0] [1] [] []
  gather_S100000x7_S1600000x1_S1600000x7_1_0_n_n_0_1_17_wf : GatherDims.WF S100000x7 S1600000x1 S1600000x7 [1] [0] [] [0] [] 1 ![1, 7]
  scatter_S100000x7_S1600000x1_S1600000x7_1_0_0_1_wf : ScatterDims.WF S100000x7 S1600000x1 S1600000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1433.size a ≤ S100000x1433.size a
  hwx0_0 : ∀ i : grid0.Coords, EltTy.bits .f32 = 32 ∨ (Rect.block (s := S100000x1433) S1000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x140.size a ≤ S1433x140.size a
  hwx0_1 : ∀ i : grid0.Coords, EltTy.bits .f32 = 32 ∨ (Rect.block (s := S1433x140) S1433x140.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S100000x1.size a
  hwx0_2 : ∀ i : grid0.Coords, EltTy.bits .f32 = 32 ∨ (Rect.block (s := S100000x1) S1000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x140.size a ≤ S100000x140.size a
  hwx0_3 : ∀ i : grid0.Coords, EltTy.bits .f32 = 32 ∨ (Rect.block (s := S100000x140) S1000x140.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x140.size a ≤ S100000x140.size a
  hwx1_0 : ∀ i : grid1.Coords, EltTy.bits .f32 = 32 ∨ (Rect.block (s := S100000x140) S2000x140.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x140.size a ≤ S1x140.size a
  hwx1_2 : ∀ i : grid1.Coords, EltTy.bits .f32 = 32 ∨ (Rect.block (s := S1x140) S1x140.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S140x7.size a ≤ S140x7.size a
  hwx1_3 : ∀ i : grid1.Coords, EltTy.bits .f32 = 32 ∨ (Rect.block (s := S140x7) S140x7.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S100000x1.size a
  hwx1_4 : ∀ i : grid1.Coords, EltTy.bits .f32 = 32 ∨ (Rect.block (s := S100000x1) S2000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x7.size a ≤ S100000x7.size a
  hwx1_5 : ∀ i : grid1.Coords, EltTy.bits .f32 = 32 ∨ (Rect.block (s := S100000x7) S2000x7.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S1000x1433_S1433x140_S1000x140_1_0_0_1_n_n : DotDims S1000x1433 S1433x140 S1000x140 where
  lhsContracting := [1]
  rhsContracting := [0]
  lhsNonContracting := [0]
  rhsNonContracting := [1]
  lhsBatch := []
  rhsBatch := []
  wf := dot_S1000x1433_S1433x140_S1000x140_1_0_0_1_n_n_wf
def gather_S100000x140_S1600000x1_S1600000x140_1_0_n_n_0_1_1140 : GatherDims S100000x140 S1600000x1 S1600000x140 where
  offsetDims := [1]
  collapsedSliceDims := [0]
  operandBatchingDims := []
  startIndicesBatchingDims := []
  startIndexMap := [0]
  indexVectorDim := 1
  sliceSizes := ![1, 140]
  wf := gather_S100000x140_S1600000x1_S1600000x140_1_0_n_n_0_1_1140_wf
def scatter_S100000x140_S1600000x1_S1600000x140_1_0_0_1 : ScatterDims S100000x140 S1600000x1 S1600000x140 where
  updateWindowDims := [1]
  insertedWindowDims := [0]
  scatterDimsToOperandDims := [0]
  indexVectorDim := 1
  wf := scatter_S100000x140_S1600000x1_S1600000x140_1_0_0_1_wf
def dot_S2000x140_S140x7_S2000x7_1_0_0_1_n_n : DotDims S2000x140 S140x7 S2000x7 where
  lhsContracting := [1]
  rhsContracting := [0]
  lhsNonContracting := [0]
  rhsNonContracting := [1]
  lhsBatch := []
  rhsBatch := []
  wf := dot_S2000x140_S140x7_S2000x7_1_0_0_1_n_n_wf
def gather_S100000x7_S1600000x1_S1600000x7_1_0_n_n_0_1_17 : GatherDims S100000x7 S1600000x1 S1600000x7 where
  offsetDims := [1]
  collapsedSliceDims := [0]
  operandBatchingDims := []
  startIndicesBatchingDims := []
  startIndexMap := [0]
  indexVectorDim := 1
  sliceSizes := ![1, 7]
  wf := gather_S100000x7_S1600000x1_S1600000x7_1_0_n_n_0_1_17_wf
def scatter_S100000x7_S1600000x1_S1600000x7_1_0_0_1 : ScatterDims S100000x7 S1600000x1 S1600000x7 where
  updateWindowDims := [1]
  insertedWindowDims := [0]
  scatterDimsToOperandDims := [0]
  indexVectorDim := 1
  wf := scatter_S100000x7_S1600000x1_S1600000x7_1_0_0_1_wf

abbrev win0_0 : Pipeline.Window sig grid0 :=
  Pipeline.Window.ofSpec (Memref.whole main_arg0) S1000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1433x140.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1000x140.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S2000x140.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x140.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S140x7.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v22) S2000x7.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x1433 : Shape := ⟨2, ![100000, 1433]⟩
abbrev S1600000 : Shape := ⟨1, ![1600000]⟩
abbrev S1433x140 : Shape := ⟨2, ![1433, 140]⟩
abbrev S140 : Shape := ⟨1, ![140]⟩
abbrev S140x7 : Shape := ⟨2, ![140, 7]⟩
abbrev S7 : Shape := ⟨1, ![7]⟩
abbrev S_ : Shape := ⟨0, ![]⟩
abbrev S100000 : Shape := ⟨1, ![100000]⟩
abbrev S1600000x1 : Shape := ⟨2, ![1600000, 1]⟩
abbrev S100000x140 : Shape := ⟨2, ![100000, 140]⟩
abbrev S100000x1 : Shape := ⟨2, ![100000, 1]⟩
abbrev S1600000x140 : Shape := ⟨2, ![1600000, 140]⟩
abbrev S1x140 : Shape := ⟨2, ![1, 140]⟩
abbrev S100000x7 : Shape := ⟨2, ![100000, 7]⟩
abbrev S1600000x7 : Shape := ⟨2, ![1600000, 7]⟩
abbrev S1x7 : Shape := ⟨2, ![1, 7]⟩

abbrev nBuf : Space → Nat
  | .hbm => 107
  | .vmem => 0
  | .smem => 0
  | _ => 0

abbrev bufTy : (tb : Table) → Fin (tcTables nBuf tb) → BufTy
  | .hbm, ⟨0, _⟩ => ⟨S100000x1433, .f32⟩
  | .hbm, ⟨1, _⟩ => ⟨S1600000, .i32⟩
  | .hbm, ⟨2, _⟩ => ⟨S1600000, .i32⟩
  | .hbm, ⟨3, _⟩ => ⟨S1433x140, .f32⟩
  | .hbm, ⟨4, _⟩ => ⟨S140, .f32⟩
  | .hbm, ⟨5, _⟩ => ⟨S140x7, .f32⟩
  | .hbm, ⟨6, _⟩ => ⟨S7, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x140, .f32⟩
  | .hbm, ⟨32, _⟩ => ⟨S100000x1, .f32⟩
  | .hbm, ⟨33, _⟩ => ⟨S100000x140, .f32⟩
  | .hbm, ⟨34, _⟩ => ⟨S100000x140, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x140, .f32⟩
  | .hbm, ⟨44, _⟩ => ⟨S_, .f32⟩
  | .hbm, ⟨45, _⟩ => ⟨S100000x140, .f32⟩
  | .hbm, ⟨46, _⟩ => ⟨S1600000x1, .i32⟩
  | .hbm, ⟨47, _⟩ => ⟨S100000x140, .f32⟩
  | .hbm, ⟨48, _⟩ => ⟨S100000x1, .f32⟩
  | .hbm, ⟨49, _⟩ => ⟨S100000x140, .f32⟩
  | .hbm, ⟨50, _⟩ => ⟨S100000x140, .f32⟩
  | .hbm, ⟨51, _⟩ => ⟨S1x140, .f32⟩
  | .hbm, ⟨52, _⟩ => ⟨S100000x140, .f32⟩
  | .hbm, ⟨53, _⟩ => ⟨S100000x140, .f32⟩
  | .hbm, ⟨54, _⟩ => ⟨S_, .f32⟩
  | .hbm, ⟨55, _⟩ => ⟨S100000x140, .f32⟩
  | .hbm, ⟨56, _⟩ => ⟨S100000x140, .f32⟩
  | .hbm, ⟨57, _⟩ => ⟨S_, .f32⟩
  | .hbm, ⟨58, _⟩ => ⟨S1600000, .f32⟩
  | .hbm, ⟨59, _⟩ => ⟨S_, .f32⟩
  | .hbm, ⟨60, _⟩ => ⟨S100000, .f32⟩
  | .hbm, ⟨61, _⟩ => ⟨S1600000x1, .i32⟩
  | .hbm, ⟨62, _⟩ => ⟨S100000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S_, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .f32⟩
  | .hbm, ⟨81, _⟩ => ⟨S100000x7, .f32⟩
  | .hbm, ⟨82, _⟩ => ⟨S100000x1, .f32⟩
  | .hbm, ⟨83, _⟩ => ⟨S100000x7, .f32⟩
  | .hbm, ⟨84, _⟩ => ⟨S100000x7, .f32⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1600000x7, .f32⟩
  | .hbm, ⟨94, _⟩ => ⟨S_, .f32⟩
  | .hbm, ⟨95, _⟩ => ⟨S100000x7, .f32⟩
  | .hbm, ⟨96, _⟩ => ⟨S1600000x1, .i32⟩
  | .hbm, ⟨97, _⟩ => ⟨S100000x7, .f32⟩
  | .hbm, ⟨98, _⟩ => ⟨S100000x1, .f32⟩
  | .hbm, ⟨99, _⟩ => ⟨S100000x7, .f32⟩
  | .hbm, ⟨100, _⟩ => ⟨S100000x7, .f32⟩
  | .hbm, ⟨101, _⟩ => ⟨S1x7, .f32⟩
  | .hbm, ⟨102, _⟩ => ⟨S100000x7, .f32⟩
  | .hbm, ⟨103, _⟩ => ⟨S100000x7, .f32⟩
  | .hbm, ⟨104, _⟩ => ⟨S_, .f32⟩
  | .hbm, ⟨105, _⟩ => ⟨S100000x7, .f32⟩
  | .hbm, ⟨106, _⟩ => ⟨S100000x7, .f32⟩
  | _, _ => ⟨S100000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call2_cst : Ref sig .tc := ⟨.hbm, 54, rfl⟩
abbrev main_call2_v0 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_10 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_11 : Ref sig .tc := ⟨.hbm, 67, rfl⟩
abbrev main_call3_v0 : Ref sig .tc := ⟨.hbm, 68, rfl⟩
abbrev main_call3_v1 : Ref sig .tc := ⟨.hbm, 69, rfl⟩
abbrev main_v41 : Ref sig .tc := ⟨.hbm, 70, rfl⟩
abbrev main_cst_12 : Ref sig .tc := ⟨.hbm, 71, rfl⟩
abbrev main_v42 : Ref sig .tc := ⟨.hbm, 72, rfl⟩
abbrev main_v43 : Ref sig .tc := ⟨.hbm, 73, rfl⟩
abbrev main_cst_13 : Ref sig .tc := ⟨.hbm, 74, rfl⟩
abbrev main_call4_v0 : Ref sig .tc := ⟨.hbm, 75, rfl⟩
abbrev main_call4_v1 : Ref sig .tc := ⟨.hbm, 76, rfl⟩
abbrev main_v44 : Ref sig .tc := ⟨.hbm, 77, rfl⟩
abbrev main_cst_14 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_c_15 : Ref sig .tc := ⟨.hbm, 85, rfl⟩
abbrev main_v51 : Ref sig .tc := ⟨.hbm, 86, rfl⟩
abbrev main_v52 : Ref sig .tc := ⟨.hbm, 87, rfl⟩
abbrev main_c_16 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_17 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_call5_cst : Ref sig .tc := ⟨.hbm, 104, rfl⟩
abbrev main_call5_v0 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x140_0_1 : S100000x1.BroadcastsInDim S100000x140 (![0, 1] : Fin 2 → Fin S100000x140.rank)
  bcast_S_S100000x140 : S_.BroadcastsInDim S100000x140 (![] : Fin 0 → Fin S100000x140.rank)
  bcast_S140_S1x140_1 : S140.BroadcastsInDim S1x140 (![1] : Fin 1 → Fin S1x140.rank)
  bcast_S1x140_S100000x140_0_1 : S1x140.BroadcastsInDim S100000x140 (![0, 1] : Fin 2 → Fin S100000x140.rank)
  bcast_S100000x1_S100000x7_0_1 : S100000x1.BroadcastsInDim S100000x7 (![0, 1] : Fin 2 → Fin S100000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S1600000x1_S1600000_n_0_0_1_wf : ScatterDims.WF S100000 S1600000x1 S1600000 [] [0] [0] 1
  dot_S100000x1433_S1433x140_S100000x140_1_0_0_1_n_n_wf : DotDims.WF S100000x1433 S1433x140 S100000x140 [1] [0] [0] [1] [] []
  gather_S100000x140_S1600000x1_S1600000x140_1_0_n_n_0_1_1140_wf : GatherDims.WF S100000x140 S1600000x1 S1600000x140 [1] [0] [] [0] [] 1 ![1, 140]
  scatter_S100000x140_S1600000x1_S1600000x140_1_0_0_1_wf : ScatterDims.WF S100000x140 S1600000x1 S1600000x140 [1] [0] [0] 1
  dot_S100000x140_S140x7_S100000x7_1_0_0_1_n_n_wf : DotDims.WF S100000x140 S140x7 S100000x7 [1] [0] [0] [1] [] []
  gather_S100000x7_S1600000x1_S1600000x7_1_0_n_n_0_1_17_wf : GatherDims.WF S100000x7 S1600000x1 S1600000x7 [1] [0] [] [0] [] 1 ![1, 7]
  scatter_S100000x7_S1600000x1_S1600000x7_1_0_0_1_wf : ScatterDims.WF S100000x7 S1600000x1 S1600000x7 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x1433_S1433x140_S100000x140_1_0_0_1_n_n : DotDims S100000x1433 S1433x140 S100000x140 where
  lhsContracting := [1]
  rhsContracting := [0]
  lhsNonContracting := [0]
  rhsNonContracting := [1]
  lhsBatch := []
  rhsBatch := []
  wf := dot_S100000x1433_S1433x140_S100000x140_1_0_0_1_n_n_wf
def gather_S100000x140_S1600000x1_S1600000x140_1_0_n_n_0_1_1140 : GatherDims S100000x140 S1600000x1 S1600000x140 where
  offsetDims := [1]
  collapsedSliceDims := [0]
  operandBatchingDims := []
  startIndicesBatchingDims := []
  startIndexMap := [0]
  indexVectorDim := 1
  sliceSizes := ![1, 140]
  wf := gather_S100000x140_S1600000x1_S1600000x140_1_0_n_n_0_1_1140_wf
def scatter_S100000x140_S1600000x1_S1600000x140_1_0_0_1 : ScatterDims S100000x140 S1600000x1 S1600000x140 where
  updateWindowDims := [1]
  insertedWindowDims := [0]
  scatterDimsToOperandDims := [0]
  indexVectorDim := 1
  wf := scatter_S100000x140_S1600000x1_S1600000x140_1_0_0_1_wf
def dot_S100000x140_S140x7_S100000x7_1_0_0_1_n_n : DotDims S100000x140 S140x7 S100000x7 where
  lhsContracting := [1]
  rhsContracting := [0]
  lhsNonContracting := [0]
  rhsNonContracting := [1]
  lhsBatch := []
  rhsBatch := []
  wf := dot_S100000x140_S140x7_S100000x7_1_0_0_1_n_n_wf
def gather_S100000x7_S1600000x1_S1600000x7_1_0_n_n_0_1_17 : GatherDims S100000x7 S1600000x1 S1600000x7 where
  offsetDims := [1]
  collapsedSliceDims := [0]
  operandBatchingDims := []
  startIndicesBatchingDims := []
  startIndexMap := [0]
  indexVectorDim := 1
  sliceSizes := ![1, 7]
  wf := gather_S100000x7_S1600000x1_S1600000x7_1_0_n_n_0_1_17_wf
def scatter_S100000x7_S1600000x1_S1600000x7_1_0_0_1 : ScatterDims S100000x7 S1600000x1 S1600000x7 where
  updateWindowDims := [1]
  insertedWindowDims := [0]
  scatterDimsToOperandDims := [0]
  indexVectorDim := 1
  wf := scatter_S100000x7_S1600000x1_S1600000x7_1_0_0_1_wf

class Facts : Prop extends Facts₀ where

variable [Facts]
-- ==== Proof.LibPlainDot.lean ====
/-
  General facts about a matrix product of the plain kind, read at one entry on the extended reals.

  The product of an M x K left operand with a K x N right operand, no batch axis, the left contracted on its second
  axis and the right on its first, accumulated into the zero array: entry (a, j) is the sum over k of
  left (a, k) * right (k, j).  The contraction index of such a product has one axis, of extent K, and is re-indexed by
  its one coordinate; the operand indices at output (a, j) and contraction k are (a, k) and (k, j).

  A column [M, 1] broadcast along the second axis to [M, N] reads, at (a, j), the column's entry (a, 0).

  A record of dimension numbers printed with a program is this plain one whenever its six lists are
  [1], [0], [0], [1], [], [] (the seventh field is a proof), by reflexivity; the lemmas are stated for
  DotDims.plain M K N so that they serve every such record.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable (M K N : Nat)

/-- The left operand's row coordinate at output index j is j's row. -/
theorem plain_lhs_row (j : (⟨2, ![M, N]⟩ : Shape).Idx) (q : (DotDims.plain M K N).contr.Idx) :
    ((DotDims.plain M K N).lhsIdx j q 0).val = (j 0).val := rfl
/-- The left operand's column coordinate is the contraction index's one coordinate. -/
theorem plain_lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's row coordinate is the contraction index's one coordinate. -/
theorem plain_rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- The right operand's column coordinate at output index j is j's column. -/
theorem plain_rhs_col (j : (⟨2, ![M, N]⟩ : Shape).Idx) (q : (DotDims.plain M K N).contr.Idx) :
    ((DotDims.plain M K N).rhsIdx j q 1).val = (j 1).val := rfl

/-- A plain matrix product into the zero accumulator, at entry (a, j): the sum over k of W (a, k) * X (k, j). -/
theorem matmul_plain_zero (W : FVec Ideal ⟨2, ![M, K]⟩ .f32) (X : FVec Ideal ⟨2, ![K, N]⟩ .f32) (a : Fin M) (j : Fin N) :
    matmul (DotDims.plain M K N) none W X (constant ⟨2, ![M, N]⟩ .f32 0x00000000#32) (ix2 a j)
      = ∑ k : Fin K, W (ix2 a k) * X (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a j) ((contrEquiv1 (DotDims.plain M K N) K rfl rfl).symm k) = ix2 a k :=
    funext fun b => Fin.ext (by
      match b with
      | ⟨0, _⟩ => exact plain_lhs_row M K N _ _
      | ⟨1, _⟩ => exact (plain_lhs_col M K N _ _).trans hk)
  have er : (DotDims.plain M K N).rhsIdx (ix2 a j) ((contrEquiv1 (DotDims.plain M K N) K rfl rfl).symm k) = ix2 k j :=
    funext fun b => Fin.ext (by
      match b with
      | ⟨0, _⟩ => exact (plain_rhs_row M K N _ _).trans hk
      | ⟨1, _⟩ => exact plain_rhs_col M K N _ _)
  rw [el, er]

/-- A column broadcast along the second axis reads the column's entry of the same row. -/
theorem broadcast_col {α : Type} (b : (⟨2, ![M, 1]⟩ : Shape).Idx → α) (hb : (⟨2, ![M, 1]⟩ : Shape).Broadcasts ⟨2, ![M, N]⟩)
    (a : Fin M) (j : Fin N) : broadcastTo ⟨2, ![M, N]⟩ b hb (ix2 a j) = b (ix2 a 0) :=
  broadcastTo_apply b hb (ix2 a j) (ix2 a 0) (fun ax => by
    match ax with
    | ⟨0, _⟩ =>
      show a.val = if M = 1 then 0 else a.val
      split
      · have := a.isLt; omega
      · rfl
    | ⟨1, _⟩ =>
      show 0 = if (1 : Nat) = 1 then 0 else j.val
      rw [if_pos rfl])

end Cert.LibPlainDot

end
-- ==== Proof.LibPlainAny.lean ====
/-
  A plain matrix product on the extended reals, whatever float formats its operands carry.

  The product of an M x K left operand with a K x N right operand (no batch axis, the left contracted on its
  second axis, the right on its first) has at entry (a, j) the value: sum over k of left (a, k) * right (k, j).
  On the extended reals a change of float format is the identity, so this reading does not depend on the
  operands' formats: it holds for a kernel's product of bf16 operands accumulated into the f32 zero array,
  and for the host's product, which has no accumulator, alike.

  The contraction index of a plain product has one axis of extent K; re-indexed by its one coordinate k, the
  operand indices at output (a, j) are (a, k) and (k, j).
-/
import proofs.«405350_j80942953660639_3_alg».proof.Proof.LibPlainDot

noncomputable section

namespace Cert.LibPlainAny

open Idealize.ShloMosaic Idealize.ShloMosaic.ValueIdx

variable (M K N : Nat)

/-- The left operand's index at output (a, j) and contraction coordinate k is (a, k). -/
theorem plain_lhsIdx (a : Fin M) (j : Fin N) (k : Fin K) :
    (DotDims.plain M K N).lhsIdx (ix2 a j) ((contrEquiv1 (DotDims.plain M K N) K rfl rfl).symm k) = ix2 a k :=
  funext fun b => Fin.ext (by
    have hk := contrEquiv1_symm_val (DotDims.plain M K N) K rfl rfl k
    match b with
    | ⟨0, _⟩ => exact Cert.LibPlainDot.plain_lhs_row M K N _ _
    | ⟨1, _⟩ => exact (Cert.LibPlainDot.plain_lhs_col M K N _ _).trans hk)

/-- The right operand's index at output (a, j) and contraction coordinate k is (k, j). -/
theorem plain_rhsIdx (a : Fin M) (j : Fin N) (k : Fin K) :
    (DotDims.plain M K N).rhsIdx (ix2 a j) ((contrEquiv1 (DotDims.plain M K N) K rfl rfl).symm k) = ix2 k j :=
  funext fun b => Fin.ext (by
    have hk := contrEquiv1_symm_val (DotDims.plain M K N) K rfl rfl k
    match b with
    | ⟨0, _⟩ => exact (Cert.LibPlainDot.plain_rhs_row M K N _ _).trans hk
    | ⟨1, _⟩ => exact Cert.LibPlainDot.plain_rhs_col M K N _ _)

/-- A kernel's plain product into the zero array, operands of any formats, at entry (a, j). -/
theorem matmul_plain_zero_any {φ₁ φ₂ : FTy} (W : FVec Ideal ⟨2, ![M, K]⟩ φ₁) (X : FVec Ideal ⟨2, ![K, N]⟩ φ₂)
    (a : Fin M) (j : Fin N) :
    matmul (DotDims.plain M K N) none W X (constant ⟨2, ![M, N]⟩ .f32 0x00000000#32) (ix2 a j)
      = ∑ k : Fin K, (W (ix2 a k) : EReal) * (X (ix2 k j) : EReal) := by
  simp only [matmul]
  rw [Ideal.matmul_constant_zero_apply, ← Equiv.sum_comp (contrEquiv1 (DotDims.plain M K N) K rfl rfl).symm]
  refine Finset.sum_congr rfl fun k _ => ?_
  rw [plain_lhsIdx, plain_rhsIdx]

/-- The host's plain product, operands of any formats, at entry (a, j). -/
theorem dotGeneral_plain_any {φ₁ φ₂ : FTy} (W : FVec Ideal ⟨2, ![M, K]⟩ φ₁) (X : FVec Ideal ⟨2, ![K, N]⟩ φ₂)
    (a : Fin M) (j : Fin N) :
    Host.dotGeneral (DotDims.plain M K N) none W X (ix2 a j)
      = ∑ k : Fin K, (W (ix2 a k) : EReal) * (X (ix2 k j) : EReal) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.LibPlainAny

end
-- ==== Proof.Region0.lean ====
/-
  The first region's output array, as one function of the arrays the region is entered with.

  The region runs over 100 grid points; point t loads rows 1000 t .. 1000 t + 999 of the feature array, the whole
  weight array and the same rows of the scale column, multiplies the two matrices (a format change is the identity
  on the extended reals) and scales row p by the column's entry p.  So the array it leaves has, at (r, q),
  (sum over k of X (r, k) * W (k, q)) * n (r, 0): the blocks are the restrictions of this one function, and the 100
  blocks cover all 100000 rows.
-/
import proofs.«405350_j80942953660639_3_alg».proof.Proof.Gen.KernelIdeal.Frame
import proofs.«405350_j80942953660639_3_alg».proof.Proof.LibPlainAny
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

/-- Entry (r, q) of the projected and scaled features. -/
def proj (X : S100000x1433.Idx → EReal) (W : S1433x140.Idx → EReal) (n : S100000x1.Idx → EReal) : S100000x140.Idx → EReal :=
  fun i => (∑ k : Fin 1433, X (ix2 (i 0) k) * W (ix2 k (i 1))) * n (ix2 (i 0) (0 : Fin 1))

theorem hz : (![0, 0] : Fin 2 → Nat) = fun _ => 0 := funext fun a => by fin_cases a <;> rfl

/-- The body's value at entry (p, q) of its block: the row-p, column-q product sum, scaled by the column's entry p. -/
theorem pay_apply (x0 : Vec Ideal S1000x1433 .f32) (x1 : Vec Ideal S1433x140 .f32) (x2 : Vec Ideal S1000x1 .f32)
    (p : Fin 1000) (q : Fin 140) :
    k0_pay1 (F := Ideal) x0 x1 x2 (ix2 p q) = (∑ k : Fin 1433, x0 (ix2 p k) * x1 (ix2 k q)) * x2 (ix2 p (0 : Fin 1)) := by
  unfold k0_pay1
  show (matmul (F := Ideal) dot_S1000x1433_S1433x140_S1000x140_1_0_0_1_n_n none (truncf .bf16 x0 _) (truncf .bf16 x1 _)
          (constant S1000x140 .f32 0x00000000#32) (ix2 p q) : EReal)
        * (broadcastTo S1000x140 (shapeCast S1000x1 x2 _) _ (ix2 p q) : EReal) = _
  rw [shapeCast_self]
  exact congrArg₂ (· * ·) (Cert.LibPlainAny.matmul_plain_zero_any 1000 1433 140 _ _ p q)
    (Cert.LibPlainDot.broadcast_col 1000 140 _ _ p q)

/-- The printed index maps over the grid: point t's blocks of the features, the scale column and the output start
    at row block t; the weight's block is the whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The arrays the region is entered with, at their literal types. -/
abbrev arrX (c : Dev nD) : S100000x1433.Idx → EReal := V c (Pipeline.arrRef spec0 0)
abbrev arrW (c : Dev nD) : S1433x140.Idx → EReal := V c (Pipeline.arrRef spec0 1)
abbrev arrN (c : Dev nD) : S100000x1.Idx → EReal := V c (Pipeline.arrRef spec0 2)

/-- Point t's blocks, at their literal types. -/
abbrev blkX (c : Dev nD) (t : Fin cfg0.N) : Vec Ideal S1000x1433 .f32 := iblk0 V c 0 t
abbrev blkW (c : Dev nD) (t : Fin cfg0.N) : Vec Ideal S1433x140 .f32 := iblk0 V c 1 t
abbrev blkN (c : Dev nD) (t : Fin cfg0.N) : Vec Ideal S1000x1 .f32 := iblk0 V c 2 t

/-- The feature block at point t is rows 1000 t .. of the feature array. -/
theorem blkX_apply (c : Dev nD) (t : Fin cfg0.N) (p : Fin 1000) (k : Fin 1433) (r : Fin 100000) (hr : r.val = t.val * 1000 + p.val) :
    blkX V c t (ix2 p k) = arrX V c (ix2 r k) := by
  obtain ⟨e0, e1, -⟩ := idx_facts t
  show iblk0 V c 0 t (ix2 p k) = _
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 1000 + 1 * p.val = r.val; rw [e0, hr]; omega
  | ⟨1, _⟩ => show win0_0.index t (1 : Fin 2) * 1433 + 1 * k.val = k.val; rw [e1]; omega

/-- The weight block at every point is the weight array. -/
theorem blkW_apply (c : Dev nD) (t : Fin cfg0.N) (k : Fin 1433) (q : Fin 140) :
    blkW V c t (ix2 k q) = arrW V c (ix2 k q) := by
  obtain ⟨-, -, e0, e1, -⟩ := idx_facts t
  show iblk0 V c 1 t (ix2 k q) = _
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 1433 + 1 * k.val = k.val; rw [e0]; omega
  | ⟨1, _⟩ => show win0_1.index t (1 : Fin 2) * 140 + 1 * q.val = q.val; rw [e1]; omega

/-- The scale block at point t is rows 1000 t .. of the scale column. -/
theorem blkN_apply (c : Dev nD) (t : Fin cfg0.N) (p : Fin 1000) (u : Fin 1) (r : Fin 100000) (hr : r.val = t.val * 1000 + p.val) :
    blkN V c t (ix2 p u) = arrN V c (ix2 r u) := by
  obtain ⟨-, -, -, -, e0, e1, -⟩ := idx_facts t
  show iblk0 V c 2 t (ix2 p u) = _
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 1000 + 1 * p.val = r.val; rw [e0, hr]; omega
  | ⟨1, _⟩ => show win0_2.index t (1 : Fin 2) * 1 + 1 * u.val = u.val; rw [e1]; omega

/-- What point t writes back is its block of the one function. -/
theorem flushed_eq (c : Dev nD) (t : Fin cfg0.N) :
    (dat0 V c).flushed 3 t = ((cfg0.win 3).blk t).view.read (Elt Ideal) (proj (arrX V c) (arrW V c) (arrN V c)) := by
  show (cfg0.win 3).cut (grid0.coords t) ((dat0 V c).after 3 t) = _
  rw [after0_3]
  unfold out0_3
  rw [View.canon_unit_zero hz]
  simp only [View.ld_unit_zero (S := S1000x1433) hz, View.ld_unit_zero (S := S1433x140) hz, View.ld_unit_zero (S := S1000x1) hz]
  funext j
  obtain ⟨p, q, rfl⟩ : ∃ (p : Fin 1000) (q : Fin 140), j = ix2 p q := ⟨j 0, j 1, eq_ix2 j⟩
  obtain ⟨-, -, -, -, -, -, e0, e1⟩ := idx_facts t
  have hr : (((cfg0.win 3).blk t).view.emb (ix2 p q) 0).val = t.val * 1000 + p.val := by
    show win0_3.index t (0 : Fin 2) * 1000 + 1 * p.val = _
    rw [e0]; omega
  have hq : ((cfg0.win 3).blk t).view.emb (ix2 p q) 1 = q :=
    Fin.ext (by show win0_3.index t (1 : Fin 2) * 140 + 1 * q.val = q.val; rw [e1]; omega)
  show k0_pay1 (F := Ideal) (blkX V c t) (blkW V c t) (blkN V c t) (ix2 p q)
    = proj (arrX V c) (arrW V c) (arrN V c) (((cfg0.win 3).blk t).view.emb (ix2 p q))
  refine (pay_apply (blkX V c t) (blkW V c t) (blkN V c t) p q).trans ?_
  unfold proj
  rw [hq, blkN_apply V c t p 0 _ hr]
  congr 1
  exact Finset.sum_congr rfl fun k _ => by rw [blkX_apply V c t p k _ hr, blkW_apply]

/-- An index of the output array is in point t's block iff each coordinate is in the block's range. -/
theorem mem_blk (t : Fin cfg0.N) (i : S100000x140.Idx) :
    i ∈ ((cfg0.win 3).blk t).view.set ↔ ∀ a : Fin 2, win0_3.index t a * S1000x140.size a ≤ (i a).val
      ∧ (i a).val < win0_3.index t a * S1000x140.size a + S1000x140.size a := by
  show i ∈ ((View.whole main_v14).slice (win0_3.rect t)).set ↔ _
  rw [View.set_slice_whole, Rect.mem_set_unit]
  exact Iff.rfl

/-- Row r lies in the block of point r / 1000: the 100 blocks cover the array. -/
theorem cover (i : S100000x140.Idx) :
    ∃ t : Fin cfg0.N, (cfg0.win 3).flush t = true ∧ i ∈ ((cfg0.win 3).blk t).view.set := by
  have hi0 : (i 0).val < 100000 := (i 0).isLt
  have hi1 : (i 1).val < 140 := (i 1).isLt
  have hN : cfg0.N = 100 := N_0
  have ht : (i 0).val / 1000 < cfg0.N := by rw [hN]; omega
  obtain ⟨-, -, -, -, -, -, e0, e1⟩ := idx_facts ⟨(i 0).val / 1000, ht⟩
  refine ⟨⟨(i 0).val / 1000, ht⟩, flush0_3 _, (mem_blk _ i).mpr fun a => ?_⟩
  match a with
  | ⟨0, _⟩ =>
    show win0_3.index ⟨(i 0).val / 1000, ht⟩ (0 : Fin 2) * 1000 ≤ (i 0).val
      ∧ (i 0).val < win0_3.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win0_3.index ⟨(i 0).val / 1000, ht⟩ (1 : Fin 2) * 140 ≤ (i 1).val
      ∧ (i 1).val < win0_3.index ⟨(i 0).val / 1000, ht⟩ (1 : Fin 2) * 140 + 140
    rw [e1]; omega

/-- The array the region leaves is the one function of the arrays it was entered with. -/
theorem final (c : Dev nD) : (dat0 V c).arrAt 3 cfg0.N = proj (arrX V c) (arrW V c) (arrN V c) :=
  (dat0 V c).arrAt_eq_of_cover 3 _ (fun t _ => flushed_eq V c t) cover

end Cert.KernelIdeal.Region0

end
-- ==== Proof.Region1.lean ====
/-
  The second region's output array, as one function of the arrays the region is entered with.

  The region runs over 50 grid points; point t loads rows 2000 t .. 2000 t + 1999 of the aggregated features A, of
  the destination scale column and of the source scale column, and the whole bias row and weight array.  Its body
  scales row p of A by the destination column's entry p, adds the bias row, takes the maximum with zero, multiplies
  by the weights (a format change is the identity on the extended reals) and scales row p by the source column's
  entry p.  So the array it leaves has, at (r, q),
  (sum over k of max (A (r, k) * nd (r, 0) + b (0, k)) 0 * W (k, q)) * ns (r, 0); the 50 blocks cover all rows.
-/
import proofs.«405350_j80942953660639_3_alg».proof.Proof.Gen.KernelIdeal.Frame
import proofs.«405350_j80942953660639_3_alg».proof.Proof.LibPlainAny
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

/-- Entry (r, q) of the second layer's projected and scaled features, by its coordinates. -/
def projAt (A : S100000x140.Idx → EReal) (nd : S100000x1.Idx → EReal) (b : S1x140.Idx → EReal) (W : S140x7.Idx → EReal)
    (ns : S100000x1.Idx → EReal) (r : Fin 100000) (q : Fin 7) : EReal :=
  (∑ k : Fin 140, max (A (ix2 r k) * nd (ix2 r (0 : Fin 1)) + b (ix2 (0 : Fin 1) k))
      (Ideal.ofBits .f32 0x00000000#32) * W (ix2 k q)) * ns (ix2 r (0 : Fin 1))

/-- The second layer's projected and scaled features. -/
def proj (A : S100000x140.Idx → EReal) (nd : S100000x1.Idx → EReal) (b : S1x140.Idx → EReal) (W : S140x7.Idx → EReal)
    (ns : S100000x1.Idx → EReal) : S100000x7.Idx → EReal :=
  fun i => projAt A nd b W ns (i 0) (i 1)

/-- Blocks that are rows r of the arrays give, at row p of the block, the arrays' value at row r. -/
theorem sum_eq_projAt (x0 : Vec Ideal S2000x140 .f32) (x1 : Vec Ideal S2000x1 .f32) (x2 : Vec Ideal S1x140 .f32)
    (x3 : Vec Ideal S140x7 .f32) (x4 : Vec Ideal S2000x1 .f32)
    (A : S100000x140.Idx → EReal) (nd : S100000x1.Idx → EReal) (b : S1x140.Idx → EReal) (W : S140x7.Idx → EReal)
    (ns : S100000x1.Idx → EReal) (p : Fin 2000) (q : Fin 7) (r : Fin 100000)
    (hA : ∀ k : Fin 140, x0 (ix2 p k) = A (ix2 r k)) (hnd : x1 (ix2 p (0 : Fin 1)) = nd (ix2 r (0 : Fin 1)))
    (hb : ∀ k : Fin 140, x2 (ix2 (0 : Fin 1) k) = b (ix2 (0 : Fin 1) k)) (hW : ∀ k : Fin 140, x3 (ix2 k q) = W (ix2 k q))
    (hns : x4 (ix2 p (0 : Fin 1)) = ns (ix2 r (0 : Fin 1))) :
    (∑ k : Fin 140, max (x0 (ix2 p k) * x1 (ix2 p (0 : Fin 1)) + x2 (ix2 (0 : Fin 1) k)) (Ideal.ofBits .f32 0x00000000#32)
          * x3 (ix2 k q)) * x4 (ix2 p (0 : Fin 1)) = projAt A nd b W ns r q := by
  unfold projAt
  rw [hnd, hns]
  exact congrArg (· * ns (ix2 r (0 : Fin 1))) (Finset.sum_congr rfl fun k _ => by rw [hA, hb, hW])

theorem hz : (![0, 0] : Fin 2 → Nat) = fun _ => 0 := funext fun a => by fin_cases a <;> rfl

/-- A row broadcast along the first axis reads the row's entry of the same column. -/
theorem broadcast_row {α : Type} (M N : Nat) (b : (⟨2, ![1, N]⟩ : Shape).Idx → α) (hb : (⟨2, ![1, N]⟩ : Shape).Broadcasts ⟨2, ![M, N]⟩)
    (a : Fin M) (j : Fin N) : broadcastTo ⟨2, ![M, N]⟩ b hb (ix2 a j) = b (ix2 (0 : Fin 1) j) :=
  broadcastTo_apply b hb (ix2 a j) (ix2 (0 : Fin 1) j) (fun ax => by
    match ax with
    | ⟨0, _⟩ =>
      show 0 = if (1 : Nat) = 1 then 0 else a.val
      rw [if_pos rfl]
    | ⟨1, _⟩ =>
      show j.val = if N = 1 then 0 else j.val
      split
      · have := j.isLt; omega
      · rfl)

/-- The body's value at entry (p, q) of its block. -/
theorem pay_apply (x0 : Vec Ideal S2000x140 .f32) (x1 : Vec Ideal S2000x1 .f32) (x2 : Vec Ideal S1x140 .f32)
    (x3 : Vec Ideal S140x7 .f32) (x4 : Vec Ideal S2000x1 .f32) (p : Fin 2000) (q : Fin 7) :
    k1_pay1 (F := Ideal) x0 x1 x2 x3 x4 (ix2 p q)
      = (∑ k : Fin 140, max (x0 (ix2 p k) * x1 (ix2 p (0 : Fin 1)) + x2 (ix2 (0 : Fin 1) k)) (Ideal.ofBits .f32 0x00000000#32)
          * x3 (ix2 k q)) * x4 (ix2 p (0 : Fin 1)) := by
  unfold k1_pay1
  show (matmul (F := Ideal) dot_S2000x140_S140x7_S2000x7_1_0_0_1_n_n none
          (truncf .bf16 (maximumf (addf (mulf (shapeCast S2000x140 x0 _) (broadcastTo S2000x140 (shapeCast S2000x1 x1 _) _))
            (broadcastTo S2000x140 (shapeCast S1x140 x2 _) _)) (broadcast S2000x140 (Scalar.ofBits .f32 0x00000000#32))) _)
          (truncf .bf16 x3 _) (constant S2000x7 .f32 0x00000000#32) (ix2 p q) : EReal)
        * (broadcastTo S2000x7 (shapeCast S2000x1 x4 _) _ (ix2 p q) : EReal) = _
  rw [shapeCast_self, shapeCast_self, shapeCast_self, shapeCast_self]
  refine (congrArg₂ (· * ·) (Cert.LibPlainAny.matmul_plain_zero_any 2000 140 7 _ _ p q)
    (Cert.LibPlainDot.broadcast_col 2000 7 _ _ p q)).trans ?_
  congr 1
  refine Finset.sum_congr rfl fun k _ => ?_
  show max (x0 (ix2 p k) * (broadcastTo S2000x140 x1 _ (ix2 p k)) + broadcastTo S2000x140 x2 _ (ix2 p k))
      (Scalar.ofBits (F := Ideal) .f32 0x00000000#32) * x3 (ix2 k q) = _
  rw [Cert.LibPlainDot.broadcast_col 2000 140 x1 _ p k, broadcast_row 2000 140 x2 _ p k]
  rfl

/-- The printed index maps over the grid: point t's blocks of A, of the two scale columns and of the output start
    at row block t; the bias row's and the weights' blocks are the whole arrays. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- The arrays the region is entered with, at their literal types. -/
abbrev arrA (c : Dev nD) : S100000x140.Idx → EReal := V c (Pipeline.arrRef spec1 0)
abbrev arrNd (c : Dev nD) : S100000x1.Idx → EReal := V c (Pipeline.arrRef spec1 1)
abbrev arrB (c : Dev nD) : S1x140.Idx → EReal := V c (Pipeline.arrRef spec1 2)
abbrev arrW (c : Dev nD) : S140x7.Idx → EReal := V c (Pipeline.arrRef spec1 3)
abbrev arrNs (c : Dev nD) : S100000x1.Idx → EReal := V c (Pipeline.arrRef spec1 4)

/-- Point t's blocks, at their literal types. -/
abbrev blkA (c : Dev nD) (t : Fin cfg1.N) : Vec Ideal S2000x140 .f32 := iblk1 V c 0 t
abbrev blkNd (c : Dev nD) (t : Fin cfg1.N) : Vec Ideal S2000x1 .f32 := iblk1 V c 1 t
abbrev blkB (c : Dev nD) (t : Fin cfg1.N) : Vec Ideal S1x140 .f32 := iblk1 V c 2 t
abbrev blkW (c : Dev nD) (t : Fin cfg1.N) : Vec Ideal S140x7 .f32 := iblk1 V c 3 t
abbrev blkNs (c : Dev nD) (t : Fin cfg1.N) : Vec Ideal S2000x1 .f32 := iblk1 V c 4 t

theorem blkA_apply (c : Dev nD) (t : Fin cfg1.N) (p : Fin 2000) (k : Fin 140) (r : Fin 100000) (hr : r.val = t.val * 2000 + p.val) :
    blkA V c t (ix2 p k) = arrA V c (ix2 r k) := by
  obtain ⟨e0, e1, -⟩ := idx_facts t
  show iblk1 V c 0 t (ix2 p k) = _
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 140 + 1 * k.val = k.val; rw [e1]; omega

theorem blkNd_apply (c : Dev nD) (t : Fin cfg1.N) (p : Fin 2000) (u : Fin 1) (r : Fin 100000) (hr : r.val = t.val * 2000 + p.val) :
    blkNd V c t (ix2 p u) = arrNd V c (ix2 r u) := by
  obtain ⟨-, -, e0, e1, -⟩ := idx_facts t
  show iblk1 V c 1 t (ix2 p u) = _
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 2000 + 1 * p.val = r.val; rw [e0, hr]; omega
  | ⟨1, _⟩ => show win1_1.index t (1 : Fin 2) * 1 + 1 * u.val = u.val; rw [e1]; omega

theorem blkB_apply (c : Dev nD) (t : Fin cfg1.N) (u : Fin 1) (k : Fin 140) :
    blkB V c t (ix2 u k) = arrB V c (ix2 u k) := by
  obtain ⟨-, -, -, -, e0, e1, -⟩ := idx_facts t
  show iblk1 V c 2 t (ix2 u k) = _
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 1 + 1 * u.val = u.val; rw [e0]; omega
  | ⟨1, _⟩ => show win1_2.index t (1 : Fin 2) * 140 + 1 * k.val = k.val; rw [e1]; omega

theorem blkW_apply (c : Dev nD) (t : Fin cfg1.N) (k : Fin 140) (q : Fin 7) :
    blkW V c t (ix2 k q) = arrW V c (ix2 k q) := by
  obtain ⟨-, -, -, -, -, -, e0, e1, -⟩ := idx_facts t
  show iblk1 V c 3 t (ix2 k q) = _
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 140 + 1 * k.val = k.val; rw [e0]; omega
  | ⟨1, _⟩ => show win1_3.index t (1 : Fin 2) * 7 + 1 * q.val = q.val; rw [e1]; omega

theorem blkNs_apply (c : Dev nD) (t : Fin cfg1.N) (p : Fin 2000) (u : Fin 1) (r : Fin 100000) (hr : r.val = t.val * 2000 + p.val) :
    blkNs V c t (ix2 p u) = arrNs V c (ix2 r u) := by
  obtain ⟨-, -, -, -, -, -, -, -, e0, e1, -⟩ := idx_facts t
  show iblk1 V c 4 t (ix2 p u) = _
  unfold iblk1
  rw [View.read_apply]
  show V c (Pipeline.arrRef spec1 4) _ = V c (Pipeline.arrRef spec1 4) _
  congr 1
  funext a
  apply Fin.ext
  match a with
  | ⟨0, _⟩ => show win1_4.index t (0 : Fin 2) * 2000 + 1 * p.val = r.val; rw [e0, hr]; omega
  | ⟨1, _⟩ => show win1_4.index t (1 : Fin 2) * 1 + 1 * u.val = u.val; rw [e1]; omega

/-- What point t writes back is its block of the one function. -/
theorem flushed_eq (c : Dev nD) (t : Fin cfg1.N) :
    (dat1 V c).flushed 5 t = ((cfg1.win 5).blk t).view.read (Elt Ideal)
      (proj (arrA V c) (arrNd V c) (arrB V c) (arrW V c) (arrNs V c)) := by
  show (cfg1.win 5).cut (grid1.coords t) ((dat1 V c).after 5 t) = _
  rw [after1_5]
  unfold out1_5
  rw [View.canon_unit_zero hz]
  simp only [View.ld_unit_zero (S := S2000x140) hz, View.ld_unit_zero (S := S2000x1) hz, View.ld_unit_zero (S := S1x140) hz,
    View.ld_unit_zero (S := S140x7) hz]
  funext j
  obtain ⟨p, q, rfl⟩ : ∃ (p : Fin 2000) (q : Fin 7), j = ix2 p q := ⟨j 0, j 1, eq_ix2 j⟩
  obtain ⟨-, -, -, -, -, -, -, -, -, -, e0, e1⟩ := idx_facts t
  have hr : (((cfg1.win 5).blk t).view.emb (ix2 p q) 0).val = t.val * 2000 + p.val := by
    show win1_5.index t (0 : Fin 2) * 2000 + 1 * p.val = _
    rw [e0]; omega
  have hq : ((cfg1.win 5).blk t).view.emb (ix2 p q) 1 = q :=
    Fin.ext (by show win1_5.index t (1 : Fin 2) * 7 + 1 * q.val = q.val; rw [e1]; omega)
  show k1_pay1 (F := Ideal) (blkA V c t) (blkNd V c t) (blkB V c t) (blkW V c t) (blkNs V c t) (ix2 p q)
    = projAt (arrA V c) (arrNd V c) (arrB V c) (arrW V c) (arrNs V c) (((cfg1.win 5).blk t).view.emb (ix2 p q) 0)
        (((cfg1.win 5).blk t).view.emb (ix2 p q) 1)
  rw [hq]
  exact (pay_apply (blkA V c t) (blkNd V c t) (blkB V c t) (blkW V c t) (blkNs V c t) p q).trans
    (sum_eq_projAt (blkA V c t) (blkNd V c t) (blkB V c t) (blkW V c t) (blkNs V c t)
      (arrA V c) (arrNd V c) (arrB V c) (arrW V c) (arrNs V c) p q (((cfg1.win 5).blk t).view.emb (ix2 p q) 0)
      (fun k => blkA_apply V c t p k _ hr) (blkNd_apply V c t p 0 _ hr) (fun k => blkB_apply V c t 0 k)
      (fun k => blkW_apply V c t k q) (blkNs_apply V c t p 0 _ hr))

/-- An index of the output array is in point t's block iff each coordinate is in the block's range. -/
theorem mem_blk (t : Fin cfg1.N) (i : S100000x7.Idx) :
    i ∈ ((cfg1.win 5).blk t).view.set ↔ ∀ a : Fin 2, win1_5.index t a * S2000x7.size a ≤ (i a).val
      ∧ (i a).val < win1_5.index t a * S2000x7.size a + S2000x7.size a := by
  show i ∈ ((View.whole main_v22).slice (win1_5.rect t)).set ↔ _
  rw [View.set_slice_whole, Rect.mem_set_unit]
  exact Iff.rfl

/-- Row r lies in the block of point r / 2000: the 50 blocks cover the array. -/
theorem cover (i : S100000x7.Idx) :
    ∃ t : Fin cfg1.N, (cfg1.win 5).flush t = true ∧ i ∈ ((cfg1.win 5).blk t).view.set := by
  have hi0 : (i 0).val < 100000 := (i 0).isLt
  have hi1 : (i 1).val < 7 := (i 1).isLt
  have hN : cfg1.N = 50 := N_1
  have ht : (i 0).val / 2000 < cfg1.N := by rw [hN]; omega
  obtain ⟨-, -, -, -, -, -, -, -, -, -, e0, e1⟩ := idx_facts ⟨(i 0).val / 2000, ht⟩
  refine ⟨⟨(i 0).val / 2000, ht⟩, flush1_5 _, (mem_blk _ i).mpr fun a => ?_⟩
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, ht⟩ (1 : Fin 2) * 7 ≤ (i 1).val
      ∧ (i 1).val < win1_5.index ⟨(i 0).val / 2000, ht⟩ (1 : Fin 2) * 7 + 7
    rw [e1]; omega

/-- The array the region leaves is the one function of the arrays it was entered with. -/
theorem final (c : Dev nD) : (dat1 V c).arrAt 5 cfg1.N = proj (arrA V c) (arrNd V c) (arrB V c) (arrW V c) (arrNs V c) :=
  (dat1 V c).arrAt_eq_of_cover 5 _ (fun t _ => flushed_eq V c t) cover

end Cert.KernelIdeal.Region1

end
-- ==== Proof.KernelValue.lean ====
/-
  The kernel program's result array, read back through its segment boundaries.

  @main computes, on the host, the two node scales (source and destination: the number of edges at each node,
  at least 1, to the power -1/2); region 0 projects and scales the features; the host takes the projected rows
  at the wrapped source indices (a take that fills rows whose index is out of range) and adds them up at the
  destination indices; region 1 applies scale, bias, maximum with zero, projects and scales; the host takes and
  adds up again and applies the last scale, bias and maximum with zero.

  This module has the host stages as functions, and the contents of the boundaries up to the first region's exit.
-/
import proofs.«405350_j80942953660639_3_alg».proof.Proof.KernelRun
import proofs.«405350_j80942953660639_3_alg».proof.Proof.Region0
import proofs.«405350_j80942953660639_3_alg».proof.Proof.Region1
import Idealize.ShloMosaic.Lib.StableHlo.Run

set_option Elab.async false
set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F]

/-! ## The host stages as functions (at any float instance) -/

/-- A node scale: the number of entries of the index array at each node, at least 1, to the power -1/2. -/
def degScale (idx : IVec S1600000 32) : FVec F S100000 .f32 :=
  Host.powf
    (maximumf (broadcastInDim S100000 ![] bcast_S_S100000 (id (constant S_ .f32 0x3F800000#32)))
      (Host.scatterAdd scatter_S100000_S1600000x1_S1600000_n_0_0_1
        (broadcastInDim S100000 ![] bcast_S_S100000 (constant S_ .f32 0x00000000#32))
        (broadcastInDim S1600000x1 ![0] bcast_S1600000_S1600000x1_0 idx)
        (broadcastInDim S1600000 ![] bcast_S_S1600000 (constant S_ .f32 0x3F800000#32))))
    (broadcastInDim S100000 ![] bcast_S_S100000 (constant S_ .f32 0xBF000000#32))

/-- The source indices wrapped (a negative index counts from the end), as a column. -/
def wrapIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The rows added up at the destination indices, 140 wide. -/
def agg140 (rows : FVec F S1600000x140 .f32) (dst : IVec S1600000 32) : FVec F S100000x140 .f32 :=
  Host.scatterAdd scatter_S100000x140_S1600000x1_S1600000x140_1_0_0_1
    (broadcastInDim S100000x140 ![] bcast_S_S100000x140 (constant S_ .f32 0x00000000#32))
    (broadcastInDim S1600000x1 ![0] bcast_S1600000_S1600000x1_0 dst) rows

/-- The rows added up at the destination indices, 7 wide. -/
def agg7 (rows : FVec F S1600000x7 .f32) (dst : IVec S1600000 32) : FVec F S100000x7 .f32 :=
  Host.scatterAdd scatter_S100000x7_S1600000x1_S1600000x7_1_0_0_1
    (broadcastInDim S100000x7 ![] bcast_S_S100000x7 (constant S_ .f32 0x00000000#32))
    (broadcastInDim S1600000x1 ![0] bcast_S1600000_S1600000x1_0 dst) rows

/-- The last scale, bias and maximum with zero. -/
def epilogue (agg : FVec F S100000x7 .f32) (nd : FVec F S100000 .f32) (b1 : FVec F S7 .f32) : FVec F S100000x7 .f32 :=
  maximumf
    (addf
      (mulf agg (broadcastInDim S100000x7 ![0, 1] bcast_S100000x1_S100000x7_0_1
        (broadcastInDim S100000x1 ![0] bcast_S100000_S100000x1_0 nd)))
      (broadcastInDim S100000x7 ![0, 1] bcast_S1x7_S100000x7_0_1 (broadcastInDim S1x7 ![1] bcast_S7_S1x7_1 b1)))
    (broadcastInDim S100000x7 ![] bcast_S_S100000x7 (constant S_ .f32 0x00000000#32))

/-! ## The boundaries' contents -/

variable (m : (ℓ : Loc nD τ sig) → Buf (Elt F) ℓ) (ρ : Dev nD → PrngReg) (c : Dev nD)

/-- The argument arrays, at their literal types. -/
abbrev aX : FVec F S100000x1433 .f32 := m ((c : Thread nD τ).loc main_arg0)
abbrev aSrc : IVec S1600000 32 := m ((c : Thread nD τ).loc main_arg1)
abbrev aDst : IVec S1600000 32 := m ((c : Thread nD τ).loc main_arg2)
abbrev aW0 : FVec F S1433x140 .f32 := m ((c : Thread nD τ).loc main_arg3)
abbrev aB0 : FVec F S140 .f32 := m ((c : Thread nD τ).loc main_arg4)
abbrev aW1 : FVec F S140x7 .f32 := m ((c : Thread nD τ).loc main_arg5)
abbrev aB1 : FVec F S7 .f32 := m ((c : Thread nD τ).loc main_arg6)

set_option maxHeartbeats 4000000

macro "read5" : tactic => `(tactic| (
  dsimp only [W5, W4, W3, W2, W1, hostOps0, hostOps0_1, hostOps0_2, hostOps0_3, hostOps0_4]
  after_results
  try rfl))

theorem W5_arg0 : W5 m ρ c (Proc.devRef .tc main_arg0) = aX m c := by read5
theorem W5_arg1 : W5 m ρ c (Proc.devRef .tc main_arg1) = aSrc m c := by read5
theorem W5_arg2 : W5 m ρ c (Proc.devRef .tc main_arg2) = aDst m c := by read5
theorem W5_arg3 : W5 m ρ c (Proc.devRef .tc main_arg3) = aW0 m c := by read5
theorem W5_arg4 : W5 m ρ c (Proc.devRef .tc main_arg4) = aB0 m c := by read5
theorem W5_arg5 : W5 m ρ c (Proc.devRef .tc main_arg5) = aW1 m c := by read5
theorem W5_arg6 : W5 m ρ c (Proc.devRef .tc main_arg6) = aB1 m c := by read5
theorem W5_v9 : W5 m ρ c (Proc.devRef .tc main_v9) = degScale (aSrc m c) := by read5
theorem W5_v12 : W5 m ρ c (Proc.devRef .tc main_v12) = degScale (aDst m c) := by read5
theorem W5_v13 : W5 m ρ c (Proc.devRef .tc main_v13)
    = shapeCast S100000x1 (degScale (aSrc m c)) shapeCasts_S100000_S100000x1 := by read5

/-! ### Region 0's exit -/

theorem W6_v14 : W6 m ρ c (Proc.devRef .tc main_v14) = (dat0 (V5 m ρ) c).arrAt 3 cfg0.N := W6_arr m ρ c 3
theorem W6_arg1 : W6 m ρ c (Proc.devRef .tc main_arg1) = aSrc m c := (W6_of_ne m ρ c main_arg1 (by decide)).trans (W5_arg1 m ρ c)
theorem W6_arg2 : W6 m ρ c (Proc.devRef .tc main_arg2) = aDst m c := (W6_of_ne m ρ c main_arg2 (by decide)).trans (W5_arg2 m ρ c)
theorem W6_arg4 : W6 m ρ c (Proc.devRef .tc main_arg4) = aB0 m c := (W6_of_ne m ρ c main_arg4 (by decide)).trans (W5_arg4 m ρ c)
theorem W6_arg5 : W6 m ρ c (Proc.devRef .tc main_arg5) = aW1 m c := (W6_of_ne m ρ c main_arg5 (by decide)).trans (W5_arg5 m ρ c)
theorem W6_arg6 : W6 m ρ c (Proc.devRef .tc main_arg6) = aB1 m c := (W6_of_ne m ρ c main_arg6 (by decide)).trans (W5_arg6 m ρ c)
theorem W6_v9 : W6 m ρ c (Proc.devRef .tc main_v9) = degScale (aSrc m c) := (W6_of_ne m ρ c main_v9 (by decide)).trans (W5_v9 m ρ c)
theorem W6_v12 : W6 m ρ c (Proc.devRef .tc main_v12) = degScale (aDst m c) := (W6_of_ne m ρ c main_v12 (by decide)).trans (W5_v12 m ρ c)

end Cert.KernelIdeal.Fold

end
-- ==== Proof.TakeMask.lean ====
/-
  Index words in range, and a mask that is all ones.

  An index word a with -100000 <= a < 100000 (signed), wrapped once the way array indexing wraps a negative
  index (a + 100000 when a < 0, else a), lies in 0 .. 99999.  A reduction by "and" from the constant 1 of an
  array whose every entry is 1 is 1 at every result index.  A select on a mask that is 1 everywhere returns
  its first array.
-/
import Idealize.ShloMosaic.PureOps.Reduce
import Idealize.ShloMosaic.PureOps.Vector

namespace Cert.TakeMask

open Idealize.ShloMosaic

theorem andi_one_one : IntOp.andi (1#1 : BitVec 1) 1#1 = 1#1 := by decide

/-- A left fold by "and" from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    show List.foldl (fun r n => IntOp.andi r (f n)) (IntOp.andi 1#1 (f a)) l = 1#1
    rw [hf a, andi_one_one]
    exact foldl_andi_ones f hf l

/-- A reduction by "and" from the constant 1 of an array of ones is 1 at every result index. -/
theorem reduce_andi_of_all_one {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_ones x hx _

theorem ofBool_eq_one_iff (b : Bool) : BitVec.ofBool b = 1#1 ↔ b = true := by cases b <;> decide

/-- The wrapped index: a + 100000 when a is negative, else a. -/
def wrap (a : BitVec 32) : BitVec 32 := Scalar.select (IntOp.cmpi .slt a 0#32) (IntOp.addi a 100000#32) a

/-- A word in [-100000, 100000), wrapped, is in [0, 99999]. -/
theorem wrap_in_range (a : BitVec 32)
    (hlo : IntOp.cmpi .sge a 4294867296#32 = 1#1) (hhi : IntOp.cmpi .slt a 100000#32 = 1#1) :
    IntOp.cmpi .sge (wrap a) 0#32 = 1#1 ∧ IntOp.cmpi .sle (wrap a) 99999#32 = 1#1 := by
  have e1 : (4294867296#32 : BitVec 32).toInt = -100000 := by decide
  have e2 : (100000#32 : BitVec 32).toInt = 100000 := by decide
  have e3 : (0#32 : BitVec 32).toInt = 0 := by decide
  have e4 : (99999#32 : BitVec 32).toInt = 99999 := by decide
  have hlo' : -100000 ≤ a.toInt := by
    have h := (ofBool_eq_one_iff _).mp (show BitVec.ofBool ((4294867296#32 : BitVec 32).sle a) = 1#1 from hlo)
    rw [BitVec.sle, decide_eq_true_eq, e1] at h
    exact h
  have hhi' : a.toInt < 100000 := by
    have h := (ofBool_eq_one_iff _).mp (show BitVec.ofBool (a.slt (100000#32 : BitVec 32)) = 1#1 from hhi)
    rw [BitVec.slt, decide_eq_true_eq, e2] at h
    exact h
  unfold wrap
  by_cases hneg : a.toInt < 0
  · have hc : IntOp.cmpi .slt a 0#32 = 1#1 := by
      show BitVec.ofBool (a.slt (0#32 : BitVec 32)) = 1#1
      rw [ofBool_eq_one_iff, BitVec.slt, decide_eq_true_eq, e3]; exact hneg
    have hv : (IntOp.addi a 100000#32).toInt = a.toInt + 100000 := by
      show (a + 100000#32).toInt = _
      rw [BitVec.toInt_add, e2, Int.bmod_def]
      split <;> omega
    rw [hc]
    show IntOp.cmpi .sge (IntOp.addi a 100000#32) 0#32 = 1#1 ∧ IntOp.cmpi .sle (IntOp.addi a 100000#32) 99999#32 = 1#1
    constructor
    · show BitVec.ofBool ((0#32 : BitVec 32).sle (IntOp.addi a 100000#32)) = 1#1
      rw [ofBool_eq_one_iff, BitVec.sle, decide_eq_true_eq, e3, hv]; omega
    · show BitVec.ofBool ((IntOp.addi a 100000#32).sle (99999#32 : BitVec 32)) = 1#1
      rw [ofBool_eq_one_iff, BitVec.sle, decide_eq_true_eq, e4, hv]; omega
  · have hc : IntOp.cmpi .slt a 0#32 ≠ 1#1 := by
      show BitVec.ofBool (a.slt (0#32 : BitVec 32)) ≠ 1#1
      rw [Ne, ofBool_eq_one_iff, BitVec.slt, decide_eq_true_eq, e3]; exact hneg
    have hs : Scalar.select (IntOp.cmpi .slt a 0#32) (IntOp.addi a 100000#32) a = a := if_neg hc
    rw [hs]
    constructor
    · show BitVec.ofBool ((0#32 : BitVec 32).sle a) = 1#1
      rw [ofBool_eq_one_iff, BitVec.sle, decide_eq_true_eq, e3]; omega
    · show BitVec.ofBool (a.sle (99999#32 : BitVec 32)) = 1#1
      rw [ofBool_eq_one_iff, BitVec.sle, decide_eq_true_eq, e4]; omega

/-- What holds of every entry of an array holds of every entry of its broadcast. -/
theorem bcast_forall {s t : Shape} {α : Type} (dims : Fin s.rank → Fin t.rank) (h : s.BroadcastsInDim t dims) (x : s.Idx → α)
    (P : α → Prop) (hP : ∀ e, P (x e)) (j : t.Idx) : P (broadcastInDim t dims h x j) := hP _

/-- A select on a mask that is 1 everywhere returns its first array. -/
theorem select_of_all_one {s : Shape} {α : Type} (c : IVec s 1) (a b : s.Idx → α) (hc : ∀ i, c i = 1#1) :
    select c a b = a := by
  funext i
  show Scalar.select (c i) (a i) (b i) = a i
  rw [hc i]; rfl

end Cert.TakeMask
-- ==== Proof.KernelFold.lean ====
/-
  The kernel program's later segment boundaries.

  A take, under the index range.  The program's take wraps the source indices, tests the wrapped indices against
  0 .. 99999, gathers the rows at the wrapped indices and selects, row by row, the gathered row where the test
  holds and a fill elsewhere.  Read in three short stretches over any buffer contents: the wrapped index column;
  the test, which is 1 everywhere once every wrapped index is in range (a reduction by "and" of ones from 1);
  the gather and the select, which then returns the gathered rows.  So where every source index lies in
  [-100000, 100000) the take is the plain gather at the wrapped indices.

  Then the second region's entry arrays, and the result array as the last scale, bias and maximum with zero of the
  second region's array gathered at the wrapped source indices and added up at the destination indices; and the
  result as one function of the two regions' arrays.
-/
import proofs.«405350_j80942953660639_3_alg».proof.Proof.KernelValue
import proofs.«405350_j80942953660639_3_alg».proof.Proof.TakeMask
import Idealize.ShloMosaic.Lib.Pipeline.Frame

set_option Elab.async false
set_option maxRecDepth 65536

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F]

set_option maxHeartbeats 4000000

/-- The source indices' range: every entry in [-100000, 100000) as signed words. -/
def SrcInRange (src : IVec S1600000 32) : Prop :=
  ∀ e, IntOp.cmpi .sge (src e) 4294867296#32 = 1#1 ∧ IntOp.cmpi .slt (src e) 100000#32 = 1#1

/-- The wrapped index column of in-range source indices lies in 0 .. 99999, entry by entry. -/
theorem wrapIdx_range (src : IVec S1600000 32) (hsrc : SrcInRange src) (i : S1600000x1.Idx) :
    IntOp.cmpi .sge (wrapIdx src i) 0#32 = 1#1 ∧ IntOp.cmpi .sle (wrapIdx src i) 99999#32 = 1#1 := by
  unfold wrapIdx
  exact Cert.TakeMask.bcast_forall _ _ _ (fun a => IntOp.cmpi .sge a 0#32 = 1#1 ∧ IntOp.cmpi .sle a 99999#32 = 1#1)
    (fun e => Cert.TakeMask.wrap_in_range (src e) (hsrc e).1 (hsrc e).2) i

/-! ## The first take (of 140-wide rows) -/

section Take1

variable (V : Valuation τ sig (Elt F))

abbrev t1A : List (HloOp τ sig (Elt F)) := (hostOps1 (F := F)).take 8
abbrev t1B : List (HloOp τ sig (Elt F)) := ((hostOps1 (F := F)).drop 8).take 10
abbrev t1C : List (HloOp τ sig (Elt F)) := (hostOps1 (F := F)).drop 18

theorem t1_split :
    StableHlo.after hostOps1 V = StableHlo.after t1C (StableHlo.after t1B (StableHlo.after t1A V)) := by
  rw [← StableHlo.after_append, ← StableHlo.after_append]
  rfl

/-- The wrapped index column. -/
theorem t1_idx : StableHlo.after t1A V (Proc.devRef .tc main_call2_v5) = wrapIdx (V (Proc.devRef .tc main_arg1)) := by
  dsimp only [t1A, hostOps1, List.take]
  after_results
  try rfl
theorem t1_A_v14 : StableHlo.after t1A V (Proc.devRef .tc main_v14) = V (Proc.devRef .tc main_v14) := by
  dsimp only [t1A, hostOps1, List.take]
  after_results
  try rfl
theorem t1_B_v14 : StableHlo.after t1B V (Proc.devRef .tc main_v14) = V (Proc.devRef .tc main_v14) := by
  dsimp only [t1B, hostOps1, List.take, List.drop]
  after_results
  try rfl
theorem t1_B_v5 : StableHlo.after t1B V (Proc.devRef .tc main_call2_v5) = V (Proc.devRef .tc main_call2_v5) := by
  dsimp only [t1B, hostOps1, List.take, List.drop]
  after_results
  try rfl

/-- Contents written at the test's buffer are the contents. -/
theorem t1_toBuf_v12 (p1 : main_call2_v12.ty = ⟨S1600000, .i1⟩) (p2 : main_call2_v12.space ≠ .host)
    (p3 : main_call2_v12.isScoped = false) (v : (⟨S1600000, .i1⟩ : BufTy).Contents (Elt F)) :
    ((TRef.of main_call2_v12 p1 p2 p3 : TRef sig ⟨S1600000, .i1⟩).toBuf v : IVec S1600000 1) = v := rfl

/-- The range test is 1 everywhere once every wrapped index is in 0 .. 99999. -/
theorem t1_mask (h : ∀ i, IntOp.cmpi .sge ((V (Proc.devRef .tc main_call2_v5) : IVec S1600000x1 32) i) 0#32 = 1#1
      ∧ IntOp.cmpi .sle ((V (Proc.devRef .tc main_call2_v5) : IVec S1600000x1 32) i) 99999#32 = 1#1) :
    (StableHlo.after t1B V (Proc.devRef .tc main_call2_v12) : IVec S1600000 1) = fun _ => 1#1 := by
  dsimp only [t1B, hostOps1, List.take, List.drop]
  after_results
  rw [t1_toBuf_v12]
  funext j
  refine Cert.TakeMask.reduce_andi_of_all_one _ _ _ _ (fun i => ?_) (fun _ => rfl) j
  show IntOp.andi (IntOp.cmpi .sge ((V (Proc.devRef .tc main_call2_v5) : IVec S1600000x1 32) i) 0#32)
      (IntOp.cmpi .sle ((V (Proc.devRef .tc main_call2_v5) : IVec S1600000x1 32) i) 99999#32) = 1#1
  rw [(h i).1, (h i).2]; rfl

/-- The gather and the select. -/
theorem t1_sel : StableHlo.after t1C V (Proc.devRef .tc main_v15)
    = select (broadcastInDim S1600000x140 ![0] bcast_S1600000_S1600000x140_0 (V (Proc.devRef .tc main_call2_v12)))
        (Host.gather gather_S100000x140_S1600000x1_S1600000x140_1_0_n_n_0_1_1140 (V (Proc.devRef .tc main_v14))
          (V (Proc.devRef .tc main_call2_v5)))
        (broadcastInDim S1600000x140 ![] bcast_S_S1600000x140 (constant S_ .f32 0x7FC00000#32)) := by
  dsimp only [t1C, hostOps1, List.drop]
  after_results
  try rfl

/-- With the source indices in range, the first take is the plain gather at the wrapped indices. -/
theorem take1_read (hsrc : SrcInRange (V (Proc.devRef .tc main_arg1))) :
    StableHlo.after hostOps1 V (Proc.devRef .tc main_v15)
      = Host.gather gather_S100000x140_S1600000x1_S1600000x140_1_0_n_n_0_1_1140 (V (Proc.devRef .tc main_v14))
          (wrapIdx (V (Proc.devRef .tc main_arg1))) := by
  have hm : (StableHlo.after t1B (StableHlo.after t1A V) (Proc.devRef .tc main_call2_v12) : IVec S1600000 1) = fun _ => 1#1 :=
    t1_mask (StableHlo.after t1A V) (fun i => by rw [t1_idx]; exact wrapIdx_range _ hsrc i)
  rw [t1_split, t1_sel, hm, t1_B_v14, t1_A_v14, t1_B_v5, t1_idx]
  exact Cert.TakeMask.select_of_all_one _ _ _ (fun _ => rfl)

end Take1

/-! ## The second take (of 7-wide rows) -/

section Take2

variable (V : Valuation τ sig (Elt F))

abbrev t2A : List (HloOp τ sig (Elt F)) := (hostOps2 (F := F)).take 8
abbrev t2B : List (HloOp τ sig (Elt F)) := ((hostOps2 (F := F)).drop 8).take 10
abbrev t2C : List (HloOp τ sig (Elt F)) := (hostOps2 (F := F)).drop 18

theorem t2_split :
    StableHlo.after hostOps2 V = StableHlo.after t2C (StableHlo.after t2B (StableHlo.after t2A V)) := by
  rw [← StableHlo.after_append, ← StableHlo.after_append]
  rfl

/-- The wrapped index column. -/
theorem t2_idx : StableHlo.after t2A V (Proc.devRef .tc main_call3_v5) = wrapIdx (V (Proc.devRef .tc main_arg1)) := by
  dsimp only [t2A, hostOps2, List.take]
  after_results
  try rfl
theorem t2_A_v22 : StableHlo.after t2A V (Proc.devRef .tc main_v22) = V (Proc.devRef .tc main_v22) := by
  dsimp only [t2A, hostOps2, List.take]
  after_results
  try rfl
theorem t2_B_v22 : StableHlo.after t2B V (Proc.devRef .tc main_v22) = V (Proc.devRef .tc main_v22) := by
  dsimp only [t2B, hostOps2, List.take, List.drop]
  after_results
  try rfl
theorem t2_B_v5 : StableHlo.after t2B V (Proc.devRef .tc main_call3_v5) = V (Proc.devRef .tc main_call3_v5) := by
  dsimp only [t2B, hostOps2, List.take, List.drop]
  after_results
  try rfl

/-- Contents written at the test's buffer are the contents. -/
theorem t2_toBuf_v12 (p1 : main_call3_v12.ty = ⟨S1600000, .i1⟩) (p2 : main_call3_v12.space ≠ .host)
    (p3 : main_call3_v12.isScoped = false) (v : (⟨S1600000, .i1⟩ : BufTy).Contents (Elt F)) :
    ((TRef.of main_call3_v12 p1 p2 p3 : TRef sig ⟨S1600000, .i1⟩).toBuf v : IVec S1600000 1) = v := rfl

/-- The range test is 1 everywhere once every wrapped index is in 0 .. 99999. -/
theorem t2_mask (h : ∀ i, IntOp.cmpi .sge ((V (Proc.devRef .tc main_call3_v5) : IVec S1600000x1 32) i) 0#32 = 1#1
      ∧ IntOp.cmpi .sle ((V (Proc.devRef .tc main_call3_v5) : IVec S1600000x1 32) i) 99999#32 = 1#1) :
    (StableHlo.after t2B V (Proc.devRef .tc main_call3_v12) : IVec S1600000 1) = fun _ => 1#1 := by
  dsimp only [t2B, hostOps2, List.take, List.drop]
  after_results
  rw [t2_toBuf_v12]
  funext j
  refine Cert.TakeMask.reduce_andi_of_all_one _ _ _ _ (fun i => ?_) (fun _ => rfl) j
  show IntOp.andi (IntOp.cmpi .sge ((V (Proc.devRef .tc main_call3_v5) : IVec S1600000x1 32) i) 0#32)
      (IntOp.cmpi .sle ((V (Proc.devRef .tc main_call3_v5) : IVec S1600000x1 32) i) 99999#32) = 1#1
  rw [(h i).1, (h i).2]; rfl

/-- The gather and the select. -/
theorem t2_sel : StableHlo.after t2C V (Proc.devRef .tc main_v23)
    = select (broadcastInDim S1600000x7 ![0] bcast_S1600000_S1600000x7_0 (V (Proc.devRef .tc main_call3_v12)))
        (Host.gather gather_S100000x7_S1600000x1_S1600000x7_1_0_n_n_0_1_17 (V (Proc.devRef .tc main_v22))
          (V (Proc.devRef .tc main_call3_v5)))
        (broadcastInDim S1600000x7 ![] bcast_S_S1600000x7 (constant S_ .f32 0x7FC00000#32)) := by
  dsimp only [t2C, hostOps2, List.drop]
  after_results
  try rfl

/-- With the source indices in range, the second take is the plain gather at the wrapped indices. -/
theorem take2_read (hsrc : SrcInRange (V (Proc.devRef .tc main_arg1))) :
    StableHlo.after hostOps2 V (Proc.devRef .tc main_v23)
      = Host.gather gather_S100000x7_S1600000x1_S1600000x7_1_0_n_n_0_1_17 (V (Proc.devRef .tc main_v22))
          (wrapIdx (V (Proc.devRef .tc main_arg1))) := by
  have hm : (StableHlo.after t2B (StableHlo.after t2A V) (Proc.devRef .tc main_call3_v12) : IVec S1600000 1) = fun _ => 1#1 :=
    t2_mask (StableHlo.after t2A V) (fun i => by rw [t2_idx]; exact wrapIdx_range _ hsrc i)
  rw [t2_split, t2_sel, hm, t2_B_v22, t2_A_v22, t2_B_v5, t2_idx]
  exact Cert.TakeMask.select_of_all_one _ _ _ (fun _ => rfl)

end Take2

/-! ## The other stretches, over any buffer contents -/

section Stretches

variable (V : Valuation τ sig (Elt F))

macro "kept1" : tactic => `(tactic| (dsimp only [hostOps1]; after_results_simp; try rfl))
theorem h1_arg1 : StableHlo.after hostOps1 V (Proc.devRef .tc main_arg1) = V (Proc.devRef .tc main_arg1) := by kept1
theorem h1_arg2 : StableHlo.after hostOps1 V (Proc.devRef .tc main_arg2) = V (Proc.devRef .tc main_arg2) := by kept1
theorem h1_arg4 : StableHlo.after hostOps1 V (Proc.devRef .tc main_arg4) = V (Proc.devRef .tc main_arg4) := by kept1
theorem h1_arg5 : StableHlo.after hostOps1 V (Proc.devRef .tc main_arg5) = V (Proc.devRef .tc main_arg5) := by kept1
theorem h1_arg6 : StableHlo.after hostOps1 V (Proc.devRef .tc main_arg6) = V (Proc.devRef .tc main_arg6) := by kept1
theorem h1_v9 : StableHlo.after hostOps1 V (Proc.devRef .tc main_v9) = V (Proc.devRef .tc main_v9) := by kept1
theorem h1_v12 : StableHlo.after hostOps1 V (Proc.devRef .tc main_v12) = V (Proc.devRef .tc main_v12) := by kept1

macro "read11" : tactic => `(tactic| (dsimp only [hostOps1_1]; after_results; try rfl))
theorem h11_v18 : StableHlo.after hostOps1_1 V (Proc.devRef .tc main_v18)
    = agg140 (V (Proc.devRef .tc main_v15)) (V (Proc.devRef .tc main_arg2)) := by read11
theorem h11_v19 : StableHlo.after hostOps1_1 V (Proc.devRef .tc main_v19)
    = shapeCast S100000x1 (V (Proc.devRef .tc main_v12)) shapeCasts_S100000_S100000x1 := by read11
theorem h11_v20 : StableHlo.after hostOps1_1 V (Proc.devRef .tc main_v20)
    = shapeCast S100000x1 (V (Proc.devRef .tc main_v9)) shapeCasts_S100000_S100000x1 := by read11
theorem h11_v21 : StableHlo.after hostOps1_1 V (Proc.devRef .tc main_v21)
    = shapeCast S1x140 (V (Proc.devRef .tc main_arg4)) shapeCasts_S140_S1x140 := by read11
theorem h11_arg1 : StableHlo.after hostOps1_1 V (Proc.devRef .tc main_arg1) = V (Proc.devRef .tc main_arg1) := by read11
theorem h11_arg2 : StableHlo.after hostOps1_1 V (Proc.devRef .tc main_arg2) = V (Proc.devRef .tc main_arg2) := by read11
theorem h11_arg5 : StableHlo.after hostOps1_1 V (Proc.devRef .tc main_arg5) = V (Proc.devRef .tc main_arg5) := by read11
theorem h11_arg6 : StableHlo.after hostOps1_1 V (Proc.devRef .tc main_arg6) = V (Proc.devRef .tc main_arg6) := by read11
theorem h11_v12 : StableHlo.after hostOps1_1 V (Proc.devRef .tc main_v12) = V (Proc.devRef .tc main_v12) := by read11

macro "kept2" : tactic => `(tactic| (dsimp only [hostOps2]; after_results_simp; try rfl))
theorem h2_arg2 : StableHlo.after hostOps2 V (Proc.devRef .tc main_arg2) = V (Proc.devRef .tc main_arg2) := by kept2
theorem h2_arg6 : StableHlo.after hostOps2 V (Proc.devRef .tc main_arg6) = V (Proc.devRef .tc main_arg6) := by kept2
theorem h2_v12 : StableHlo.after hostOps2 V (Proc.devRef .tc main_v12) = V (Proc.devRef .tc main_v12) := by kept2

/-- The last two stretches: add up at the destination indices, scale, bias, maximum with zero. -/
theorem tail_v33 : StableHlo.after hostOps2_2 (StableHlo.after hostOps2_1 V) (Proc.devRef .tc main_v33)
    = epilogue (agg7 (V (Proc.devRef .tc main_v23)) (V (Proc.devRef .tc main_arg2))) (V (Proc.devRef .tc main_v12))
        (V (Proc.devRef .tc main_arg6)) := by
  dsimp only [hostOps2_1, hostOps2_2]
  after_results
  try rfl

end Stretches

/-! ## The boundaries' contents from the first region's exit on -/

variable (m : (ℓ : Loc nD τ sig) → Buf (Elt F) ℓ) (ρ : Dev nD → PrngReg) (c : Dev nD)

section Boundaries

variable (hsrc : SrcInRange (aSrc m c))

include hsrc in
theorem W7_v15 : W7 m ρ c (Proc.devRef .tc main_v15)
    = Host.gather gather_S100000x140_S1600000x1_S1600000x140_1_0_n_n_0_1_1140 ((dat0 (V5 m ρ) c).arrAt 3 cfg0.N)
        (wrapIdx (aSrc m c)) := by
  have h := take1_read (W6 m ρ c) (by rw [W6_arg1]; exact hsrc)
  rw [W6_v14, W6_arg1] at h
  exact h

theorem W7_arg1 : W7 m ρ c (Proc.devRef .tc main_arg1) = aSrc m c := (h1_arg1 (W6 m ρ c)).trans (W6_arg1 m ρ c)
theorem W7_arg2 : W7 m ρ c (Proc.devRef .tc main_arg2) = aDst m c := (h1_arg2 (W6 m ρ c)).trans (W6_arg2 m ρ c)
theorem W7_arg4 : W7 m ρ c (Proc.devRef .tc main_arg4) = aB0 m c := (h1_arg4 (W6 m ρ c)).trans (W6_arg4 m ρ c)
theorem W7_arg5 : W7 m ρ c (Proc.devRef .tc main_arg5) = aW1 m c := (h1_arg5 (W6 m ρ c)).trans (W6_arg5 m ρ c)
theorem W7_arg6 : W7 m ρ c (Proc.devRef .tc main_arg6) = aB1 m c := (h1_arg6 (W6 m ρ c)).trans (W6_arg6 m ρ c)
theorem W7_v9 : W7 m ρ c (Proc.devRef .tc main_v9) = degScale (aSrc m c) := (h1_v9 (W6 m ρ c)).trans (W6_v9 m ρ c)
theorem W7_v12 : W7 m ρ c (Proc.devRef .tc main_v12) = degScale (aDst m c) := (h1_v12 (W6 m ρ c)).trans (W6_v12 m ρ c)

include hsrc in
theorem W8_v18 : W8 m ρ c (Proc.devRef .tc main_v18)
    = agg140 (Host.gather gather_S100000x140_S1600000x1_S1600000x140_1_0_n_n_0_1_1140 ((dat0 (V5 m ρ) c).arrAt 3 cfg0.N)
        (wrapIdx (aSrc m c))) (aDst m c) := by
  have h := h11_v18 (W7 m ρ c)
  rw [W7_v15 m ρ c hsrc, W7_arg2] at h
  exact h
theorem W8_v19 : W8 m ρ c (Proc.devRef .tc main_v19)
    = shapeCast S100000x1 (degScale (aDst m c)) shapeCasts_S100000_S100000x1 := by
  have h := h11_v19 (W7 m ρ c)
  rw [W7_v12] at h
  exact h
theorem W8_v20 : W8 m ρ c (Proc.devRef .tc main_v20)
    = shapeCast S100000x1 (degScale (aSrc m c)) shapeCasts_S100000_S100000x1 := by
  have h := h11_v20 (W7 m ρ c)
  rw [W7_v9] at h
  exact h
theorem W8_v21 : W8 m ρ c (Proc.devRef .tc main_v21) = shapeCast S1x140 (aB0 m c) shapeCasts_S140_S1x140 := by
  have h := h11_v21 (W7 m ρ c)
  rw [W7_arg4] at h
  exact h
theorem W8_arg1 : W8 m ρ c (Proc.devRef .tc main_arg1) = aSrc m c := (h11_arg1 (W7 m ρ c)).trans (W7_arg1 m ρ c)
theorem W8_arg2 : W8 m ρ c (Proc.devRef .tc main_arg2) = aDst m c := (h11_arg2 (W7 m ρ c)).trans (W7_arg2 m ρ c)
theorem W8_arg5 : W8 m ρ c (Proc.devRef .tc main_arg5) = aW1 m c := (h11_arg5 (W7 m ρ c)).trans (W7_arg5 m ρ c)
theorem W8_arg6 : W8 m ρ c (Proc.devRef .tc main_arg6) = aB1 m c := (h11_arg6 (W7 m ρ c)).trans (W7_arg6 m ρ c)
theorem W8_v12 : W8 m ρ c (Proc.devRef .tc main_v12) = degScale (aDst m c) := (h11_v12 (W7 m ρ c)).trans (W7_v12 m ρ c)

theorem W9_v22 : W9 m ρ c (Proc.devRef .tc main_v22) = (dat1 (V8 m ρ) c).arrAt 5 cfg1.N := W9_arr m ρ c 5
theorem W9_arg1 : W9 m ρ c (Proc.devRef .tc main_arg1) = aSrc m c := (W9_of_ne m ρ c main_arg1 (by decide)).trans (W8_arg1 m ρ c)
theorem W9_arg2 : W9 m ρ c (Proc.devRef .tc main_arg2) = aDst m c := (W9_of_ne m ρ c main_arg2 (by decide)).trans (W8_arg2 m ρ c)
theorem W9_arg6 : W9 m ρ c (Proc.devRef .tc main_arg6) = aB1 m c := (W9_of_ne m ρ c main_arg6 (by decide)).trans (W8_arg6 m ρ c)
theorem W9_v12 : W9 m ρ c (Proc.devRef .tc main_v12) = degScale (aDst m c) := (W9_of_ne m ρ c main_v12 (by decide)).trans (W8_v12 m ρ c)

include hsrc in
theorem W10_v23 : W10 m ρ c (Proc.devRef .tc main_v23)
    = Host.gather gather_S100000x7_S1600000x1_S1600000x7_1_0_n_n_0_1_17 ((dat1 (V8 m ρ) c).arrAt 5 cfg1.N)
        (wrapIdx (aSrc m c)) := by
  have h := take2_read (W9 m ρ c) (by rw [W9_arg1]; exact hsrc)
  rw [W9_v22, W9_arg1] at h
  exact h
theorem W10_arg2 : W10 m ρ c (Proc.devRef .tc main_arg2) = aDst m c := (h2_arg2 (W9 m ρ c)).trans (W9_arg2 m ρ c)
theorem W10_arg6 : W10 m ρ c (Proc.devRef .tc main_arg6) = aB1 m c := (h2_arg6 (W9 m ρ c)).trans (W9_arg6 m ρ c)
theorem W10_v12 : W10 m ρ c (Proc.devRef .tc main_v12) = degScale (aDst m c) := (h2_v12 (W9 m ρ c)).trans (W9_v12 m ρ c)

include hsrc in
/-- The result array at the last boundary. -/
theorem W12_v33 : W12 m ρ c (Proc.devRef .tc main_v33)
    = epilogue (agg7 (Host.gather gather_S100000x7_S1600000x1_S1600000x7_1_0_n_n_0_1_17 ((dat1 (V8 m ρ) c).arrAt 5 cfg1.N)
        (wrapIdx (aSrc m c))) (aDst m c)) (degScale (aDst m c)) (aB1 m c) := by
  have h := tail_v33 (W10 m ρ c)
  rw [W10_v23 m ρ c hsrc, W10_arg2, W10_v12, W10_arg6] at h
  exact h

end Boundaries

/-! ## The result as one function of the two regions' arrays -/

/-- The program's result from the first region's array p0 and the second region's function p1 of the aggregated rows,
    each take a plain gather at the wrapped indices. -/
def kerSkel (p0 : FVec F S100000x140 .f32) (p1 : FVec F S100000x140 .f32 → FVec F S100000x7 .f32)
    (src dst : IVec S1600000 32) (b1 : FVec F S7 .f32) : FVec F S100000x7 .f32 :=
  epilogue (agg7 (Host.gather gather_S100000x7_S1600000x1_S1600000x7_1_0_n_n_0_1_17
      (p1 (agg140 (Host.gather gather_S100000x140_S1600000x1_S1600000x140_1_0_n_n_0_1_1140 p0 (wrapIdx src)) dst))
      (wrapIdx src)) dst) (degScale dst) b1

end Cert.KernelIdeal.Fold

end
-- ==== Proof.LibLayout2.lean ====
/-
  Small layout facts read at an entry: a column [M, 1] and a row [1, N] broadcast in dimensions [0, 1] to [M, N],
  a vector [N] broadcast in dimension [1] to one row [1, N], and a vector [M] recast as a column [M, 1].
-/
import Idealize.ShloMosaic.Lib.ValueIdx
import Idealize.ShloMosaic.Lib.ValueLayout
import Idealize.ShloMosaic.Lib.Pipeline.Value

noncomputable section

namespace Cert.LibLayout2

open Idealize.ShloMosaic Idealize.ShloMosaic.ValueIdx

variable {α : Type}

/-- A column broadcast over the columns reads, at (r, q), the column's entry of row r. -/
theorem bcast_col_apply {M N : Nat} (y : (⟨2, ![M, 1]⟩ : Shape).Idx → α)
    (h : (⟨2, ![M, 1]⟩ : Shape).BroadcastsInDim ⟨2, ![M, N]⟩ ![0, 1]) (r : Fin M) (q : Fin N) :
    broadcastInDim ⟨2, ![M, N]⟩ ![0, 1] h y (ix2 r q) = y (ix2 r (0 : Fin 1)) :=
  broadcastInDim_apply ![0, 1] h y (ix2 r q) (ix2 r (0 : Fin 1)) fun ax => by
    match ax with
    | ⟨0, _⟩ =>
      show r.val = if M = 1 then 0 else r.val
      split
      · have := r.isLt; omega
      · rfl
    | ⟨1, _⟩ => rfl

/-- A row broadcast over the rows reads, at (r, q), the row's entry of column q. -/
theorem bcast_row_apply {M N : Nat} (y : (⟨2, ![1, N]⟩ : Shape).Idx → α)
    (h : (⟨2, ![1, N]⟩ : Shape).BroadcastsInDim ⟨2, ![M, N]⟩ ![0, 1]) (r : Fin M) (q : Fin N) :
    broadcastInDim ⟨2, ![M, N]⟩ ![0, 1] h y (ix2 r q) = y (ix2 (0 : Fin 1) q) :=
  broadcastInDim_apply ![0, 1] h y (ix2 r q) (ix2 (0 : Fin 1) q) fun ax => by
    match ax with
    | ⟨0, _⟩ => rfl
    | ⟨1, _⟩ =>
      show q.val = if N = 1 then 0 else q.val
      split
      · have := q.isLt; omega
      · rfl

/-- A vector broadcast to one row reads, at (u, q), the vector's entry q. -/
theorem bcast_vec_row_apply {N : Nat} (b : (⟨1, ![N]⟩ : Shape).Idx → α)
    (h : (⟨1, ![N]⟩ : Shape).BroadcastsInDim ⟨2, ![1, N]⟩ ![1]) (u : Fin 1) (q : Fin N) :
    broadcastInDim ⟨2, ![1, N]⟩ ![1] h b (ix2 u q) = b (ix1 q) :=
  broadcastInDim_apply ![1] h b (ix2 u q) (ix1 q) fun ax => by
    match ax with
    | ⟨0, _⟩ =>
      show q.val = if N = 1 then 0 else q.val
      split
      · have := q.isLt; omega
      · rfl

/-- A vector recast as a column reads, at (r, u), the vector's entry r. -/
theorem shapeCast_a_a1_apply {M : Nat} (x : (⟨1, ![M]⟩ : Shape).Idx → α) (h : (⟨1, ![M]⟩ : Shape).ShapeCasts ⟨2, ![M, 1]⟩)
    (r : Fin M) (u : Fin 1) : shapeCast ⟨2, ![M, 1]⟩ x h (ix2 r u) = x (ix1 r) :=
  shapeCast_apply x h _ _ (by
    have hu : u.val = 0 := by omega
    rw [Shape.rowMajor_val_two, Shape.rowMajor_val_one]
    show r.val = r.val * 1 + u.val
    omega)

end Cert.LibLayout2

end
-- ==== Proof.Bridge.lean ====
/-
  The two regions' functions are the reference's projections.

  The reference multiplies the whole feature array by the weights on the host and scales row r by the node
  scale's entry r, which it lays out first as a column and then across the columns.  Entry by entry that is the
  first region's function: the sum over k of X (r, k) * W (k, q), times n r.  Likewise the second layer: the
  reference scales the aggregated rows, adds the bias row, takes the maximum with zero, multiplies by the weights
  and scales by the source node scale; entry by entry that is the second region's function.  A matrix product with
  one contracted axis is the sum over that axis on the extended reals, on the host and in the kernel alike.
-/
import proofs.«405350_j80942953660639_3_alg».proof.ReferenceIdeal
import proofs.«405350_j80942953660639_3_alg».proof.Proof.Gen.ReferenceIdeal
import proofs.«405350_j80942953660639_3_alg».proof.Proof.Region0
import proofs.«405350_j80942953660639_3_alg».proof.Proof.Region1
import proofs.«405350_j80942953660639_3_alg».proof.Proof.LibPlainAny
import proofs.«405350_j80942953660639_3_alg».proof.Proof.LibLayout2
import Idealize.ShloMosaic.Lib.ValueIdx
import Idealize.ShloMosaic.Lib.ValueLayout
import Idealize.ShloMosaic.Lib.Pipeline.Value

set_option Elab.async false

noncomputable section

namespace Cert.Bridge

open Idealize.ShloMosaic Idealize.ShloMosaic.ValueIdx

/-- A vector laid out as a column reads, at (r, u), the vector's entry r. -/
theorem bcast_vec_col_apply {α : Type} {M : Nat} (x : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h x (ix2 r u) = x (ix1 r) :=
  broadcastInDim_apply ![0] h x (ix2 r u) (ix1 r) fun ax => by
    match ax with
    | ⟨0, _⟩ =>
      show r.val = if M = 1 then 0 else r.val
      split
      · have := r.isLt; omega
      · rfl

/-- A vector recast as a row reads, at (u, q), the vector's entry q. -/
theorem shapeCast_vec_row_apply {α : Type} {N : Nat} (x : (⟨1, ![N]⟩ : Shape).Idx → α)
    (h : (⟨1, ![N]⟩ : Shape).ShapeCasts ⟨2, ![1, N]⟩) (u : Fin 1) (q : Fin N) :
    shapeCast ⟨2, ![1, N]⟩ x h (ix2 u q) = x (ix1 q) :=
  shapeCast_apply x h _ _ (by
    have hu : u.val = 0 := by omega
    rw [Shape.rowMajor_val_two, Shape.rowMajor_val_one]
    show q.val = u.val * N + q.val
    rw [hu]; omega)

/-- The first region's function is the reference's scaled product of the features and the weights. -/
theorem proj0_eq (X : FVec Ideal Cert.ReferenceIdeal.S100000x1433 .f32) (W : FVec Ideal Cert.ReferenceIdeal.S1433x140 .f32)
    (n : FVec Ideal Cert.ReferenceIdeal.S100000 .f32) :
    Cert.KernelIdeal.Region0.proj X W
        (shapeCast Cert.KernelIdeal.S100000x1 n Cert.KernelIdeal.Gen.shapeCasts_S100000_S100000x1)
      = mulf (Host.dotGeneral Cert.ReferenceIdeal.dot_S100000x1433_S1433x140_S100000x140_1_0_0_1_n_n none X W)
          (broadcastInDim Cert.ReferenceIdeal.S100000x140 ![0, 1] Cert.ReferenceIdeal.Gen.bcast_S100000x1_S100000x140_0_1
            (broadcastInDim Cert.ReferenceIdeal.S100000x1 ![0] Cert.ReferenceIdeal.Gen.bcast_S100000_S100000x1_0 n)) := by
  funext i
  obtain ⟨r, q, rfl⟩ : ∃ (r : Fin 100000) (q : Fin 140), i = ix2 r q := ⟨i 0, i 1, eq_ix2 i⟩
  show (∑ k : Fin 1433, X (ix2 r k) * W (ix2 k q)) * shapeCast (⟨2, ![100000, 1]⟩ : Shape) n _ (ix2 r (0 : Fin 1))
    = Host.dotGeneral (F := Ideal) Cert.ReferenceIdeal.dot_S100000x1433_S1433x140_S100000x140_1_0_0_1_n_n none X W (ix2 r q)
      * broadcastInDim (⟨2, ![100000, 140]⟩ : Shape) ![0, 1] _ (broadcastInDim (⟨2, ![100000, 1]⟩ : Shape) ![0] _ n) (ix2 r q)
  rw [Cert.LibLayout2.shapeCast_a_a1_apply, Cert.LibLayout2.bcast_col_apply, bcast_vec_col_apply]
  exact congrArg (· * n (ix1 r)) (Cert.LibPlainAny.dotGeneral_plain_any 100000 1433 140 X W r q).symm

/-- The second region's function is the reference's second projection of the scaled, biased, clipped aggregate. -/
theorem proj1_eq (A : FVec Ideal Cert.ReferenceIdeal.S100000x140 .f32) (nd ns : FVec Ideal Cert.ReferenceIdeal.S100000 .f32)
    (b : FVec Ideal Cert.ReferenceIdeal.S140 .f32) (W : FVec Ideal Cert.ReferenceIdeal.S140x7 .f32) :
    Cert.KernelIdeal.Region1.proj A
        (shapeCast Cert.KernelIdeal.S100000x1 nd Cert.KernelIdeal.Gen.shapeCasts_S100000_S100000x1)
        (shapeCast Cert.KernelIdeal.S1x140 b Cert.KernelIdeal.Gen.shapeCasts_S140_S1x140) W
        (shapeCast Cert.KernelIdeal.S100000x1 ns Cert.KernelIdeal.Gen.shapeCasts_S100000_S100000x1)
      = mulf (Host.dotGeneral Cert.ReferenceIdeal.dot_S100000x140_S140x7_S100000x7_1_0_0_1_n_n none
            (maximumf
              (addf
                (mulf A (broadcastInDim Cert.ReferenceIdeal.S100000x140 ![0, 1] Cert.ReferenceIdeal.Gen.bcast_S100000x1_S100000x140_0_1
                  (broadcastInDim Cert.ReferenceIdeal.S100000x1 ![0] Cert.ReferenceIdeal.Gen.bcast_S100000_S100000x1_0 nd)))
                (broadcastInDim Cert.ReferenceIdeal.S100000x140 ![0, 1] Cert.ReferenceIdeal.Gen.bcast_S1x140_S100000x140_0_1
                  (broadcastInDim Cert.ReferenceIdeal.S1x140 ![1] Cert.ReferenceIdeal.Gen.bcast_S140_S1x140_1 b)))
              (broadcastInDim Cert.ReferenceIdeal.S100000x140 ![] Cert.ReferenceIdeal.Gen.bcast_S_S100000x140
                (constant Cert.ReferenceIdeal.S_ .f32 0x00000000#32)))
            W)
          (broadcastInDim Cert.ReferenceIdeal.S100000x7 ![0, 1] Cert.ReferenceIdeal.Gen.bcast_S100000x1_S100000x7_0_1
            (broadcastInDim Cert.ReferenceIdeal.S100000x1 ![0] Cert.ReferenceIdeal.Gen.bcast_S100000_S100000x1_0 ns)) := by
  funext i
  obtain ⟨r, q, rfl⟩ : ∃ (r : Fin 100000) (q : Fin 7), i = ix2 r q := ⟨i 0, i 1, eq_ix2 i⟩
  show Cert.KernelIdeal.Region1.projAt A _ _ W _ r q = _
  unfold Cert.KernelIdeal.Region1.projAt
  rw [Cert.LibLayout2.shapeCast_a_a1_apply, Cert.LibLayout2.shapeCast_a_a1_apply]
  rw [mulf_apply, Cert.LibLayout2.bcast_col_apply, bcast_vec_col_apply]
  refine congrArg (· * ns (ix1 r)) ?_
  refine Eq.trans ?_ (Cert.LibPlainAny.dotGeneral_plain_any 100000 140 7 _ W r q).symm
  refine Finset.sum_congr rfl fun k _ => ?_
  refine congrArg (· * W (ix2 k q)) ?_
  rw [shapeCast_vec_row_apply, maximumf_apply, addf_apply, mulf_apply, Cert.LibLayout2.bcast_col_apply, bcast_vec_col_apply,
    Cert.LibLayout2.bcast_row_apply, Cert.LibLayout2.bcast_vec_row_apply]
  rfl

end Cert.Bridge

end
-- ==== Proof.PreDecode.lean ====
/-
  What the precondition says of the source index array: every entry a satisfies -100000 <= a and a < 100000
  as signed 32-bit words.  The precondition is a conjunction of "all" reductions; its last conjunct is the "all"
  of (a >= -100000) and (a < 100000) over the entries of the source index array.
-/
import proofs.«405350_j80942953660639_3_alg».proof.Pre_finite_inputs
import Idealize.ShloMosaic.Lib.ReduceAll
import Idealize.ShloMosaic.Lib.ValueIdx

noncomputable section

namespace Cert.PreDecode

open Idealize.ShloMosaic Cert.Pre_finite_inputs

variable [Cert.Pre_finite_inputs.Facts]

instance : Subsingleton S_.Idx := ⟨fun a b => funext fun d => d.elim0⟩

/-- Under the precondition every source index word lies in [-100000, 100000). -/
theorem src_range {F : FTy → Type} [FloatOps F] (a0 : FVec F S100000x1433 .f32) (a1 : IVec S1600000 32) (a2 : IVec S1600000 32)
    (a3 : FVec F S1433x140 .f32) (a4 : FVec F S140 .f32) (a5 : FVec F S140x7 .f32) (a6 : FVec F S7 .f32)
    (h : fn (F := F) a0 a1 a2 a3 a4 a5 a6 = fun _ => 1#1) (e : S1600000.Idx) :
    IntOp.cmpi .sge (a1 e) 4294867296#32 = 1#1 ∧ IntOp.cmpi .slt (a1 e) 100000#32 = 1#1 := by
  have h0 := congrFun h ValueIdx.ix0
  dsimp only [fn, fn_part1] at h0
  obtain ⟨-, h1⟩ := IntOp.andi_eq_one.1 h0
  have h2 := Host.reduce_andi_all _ _ _ _ _ h1 e
  obtain ⟨h3, h4⟩ := IntOp.andi_eq_one.1 h2
  exact ⟨h3, h4⟩

end Cert.PreDecode

end
-- ==== Proof.Final.lean ====
/-
  The two programs compute one function.

  The reference's result term is, operation for operation, the kernel program's result with each take a plain gather
  and with the two regions' arrays replaced by the reference's own projections: both programs compute the same node
  scales, take rows at the same wrapped source indices, add them up at the same destination indices, and finish
  with the same scale, bias and maximum with zero.  The regions' arrays are those projections entry by entry, and
  under the precondition every source index is a valid row index, so the kernel's takes are plain gathers.
-/
import proofs.«405350_j80942953660639_3_alg».proof.Defs
import proofs.«405350_j80942953660639_3_alg».proof.Proof.Gen.Kernel.Frame
import proofs.«405350_j80942953660639_3_alg».proof.Proof.Gen.ReferenceIdeal.Run
import proofs.«405350_j80942953660639_3_alg».proof.Proof.Gen.Pre_finite_inputs
import proofs.«405350_j80942953660639_3_alg».proof.Proof.KernelFold
import proofs.«405350_j80942953660639_3_alg».proof.Proof.Bridge
import proofs.«405350_j80942953660639_3_alg».proof.Proof.PreDecode

set_option Elab.async false
set_option maxRecDepth 65536

noncomputable section

namespace Cert.Final

open Idealize.ShloMosaic Idealize.ShloMosaic.TcCoe Idealize.SL.Sem
open Cert.KernelIdeal.Fold

/-! ## The reference's result term, at any float instance -/

section AnyF

variable {F : FTy → Type} [FloatOps F]
variable (m' : (ℓ : Loc Cert.ReferenceIdeal.nD Cert.ReferenceIdeal.τ Cert.ReferenceIdeal.sig) → Buf (Elt F) ℓ)
  (c : Dev Cert.ReferenceIdeal.nD)

/-- The reference's first projection: the features times the weights, row r scaled by the source node scale. -/
def refP0 (X : FVec F Cert.ReferenceIdeal.S100000x1433 .f32) (W : FVec F Cert.ReferenceIdeal.S1433x140 .f32)
    (n : FVec F Cert.ReferenceIdeal.S100000 .f32) : FVec F Cert.ReferenceIdeal.S100000x140 .f32 :=
  mulf (Host.dotGeneral Cert.ReferenceIdeal.dot_S100000x1433_S1433x140_S100000x140_1_0_0_1_n_n none X W)
    (broadcastInDim Cert.ReferenceIdeal.S100000x140 ![0, 1] Cert.ReferenceIdeal.Gen.bcast_S100000x1_S100000x140_0_1
      (broadcastInDim Cert.ReferenceIdeal.S100000x1 ![0] Cert.ReferenceIdeal.Gen.bcast_S100000_S100000x1_0 n))

/-- The reference's second projection of the aggregated rows A. -/
def refP1 (nd ns : FVec F Cert.ReferenceIdeal.S100000 .f32) (b : FVec F Cert.ReferenceIdeal.S140 .f32)
    (W : FVec F Cert.ReferenceIdeal.S140x7 .f32) (A : FVec F Cert.ReferenceIdeal.S100000x140 .f32) :
    FVec F Cert.ReferenceIdeal.S100000x7 .f32 :=
  mulf (Host.dotGeneral Cert.ReferenceIdeal.dot_S100000x140_S140x7_S100000x7_1_0_0_1_n_n none
      (maximumf
        (addf
          (mulf A (broadcastInDim Cert.ReferenceIdeal.S100000x140 ![0, 1] Cert.ReferenceIdeal.Gen.bcast_S100000x1_S100000x140_0_1
            (broadcastInDim Cert.ReferenceIdeal.S100000x1 ![0] Cert.ReferenceIdeal.Gen.bcast_S100000_S100000x1_0 nd)))
          (broadcastInDim Cert.ReferenceIdeal.S100000x140 ![0, 1] Cert.ReferenceIdeal.Gen.bcast_S1x140_S100000x140_0_1
            (broadcastInDim Cert.ReferenceIdeal.S1x140 ![1] Cert.ReferenceIdeal.Gen.bcast_S140_S1x140_1 b)))
        (broadcastInDim Cert.ReferenceIdeal.S100000x140 ![] Cert.ReferenceIdeal.Gen.bcast_S_S100000x140
          (constant Cert.ReferenceIdeal.S_ .f32 0x00000000#32)))
      W)
    (broadcastInDim Cert.ReferenceIdeal.S100000x7 ![0, 1] Cert.ReferenceIdeal.Gen.bcast_S100000x1_S100000x7_0_1
      (broadcastInDim Cert.ReferenceIdeal.S100000x1 ![0] Cert.ReferenceIdeal.Gen.bcast_S100000_S100000x1_0 ns))

set_option maxHeartbeats 8000000 in
/-- The reference's result is the kernel program's result function, with plain gathers, of the reference's two
    projections: the same operations in the same order. -/
theorem res_eq_kerSkel :
    Cert.ReferenceIdeal.Value.res_main_v67 (F := F) m' c
      = kerSkel (F := F)
          (refP0 (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg3))
            (degScale (m' ((c.tc : Thread Cert.ReferenceIdeal.nD Cert.ReferenceIdeal.τ).loc Cert.ReferenceIdeal.main_arg1))))
          (refP1 (degScale (m' ((c.tc : Thread Cert.ReferenceIdeal.nD Cert.ReferenceIdeal.τ).loc Cert.ReferenceIdeal.main_arg2)))
            (degScale (m' ((c.tc : Thread Cert.ReferenceIdeal.nD Cert.ReferenceIdeal.τ).loc Cert.ReferenceIdeal.main_arg1)))
            (m' ((c.tc : Thread Cert.ReferenceIdeal.nD Cert.ReferenceIdeal.τ).loc Cert.ReferenceIdeal.main_arg4))
            (m' ((c.tc : Thread Cert.ReferenceIdeal.nD Cert.ReferenceIdeal.τ).loc Cert.ReferenceIdeal.main_arg5)))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg6)) := by
  unfold Cert.ReferenceIdeal.Value.res_main_v67 kerSkel refP0 refP1 epilogue agg7 agg140 degScale wrapIdx
  rfl

end AnyF

/-! ## At the extended reals -/

section AtIdeal

open Cert.KernelIdeal Cert.KernelIdeal.Gen

variable (m : (ℓ : Loc nD τ sig) → Buf (Elt Ideal) ℓ) (ρ : Dev nD → PrngReg) (c : Dev nD)

/-- The first region's array, from the argument arrays. -/
def kP0 : FVec Ideal S100000x140 .f32 :=
  Cert.KernelIdeal.Region0.proj (aX m c) (aW0 m c)
    (shapeCast S100000x1 (degScale (F := Ideal) (aSrc m c)) shapeCasts_S100000_S100000x1)

/-- The second region's array, from the aggregated rows A and the argument arrays. -/
def kP1 (A : FVec Ideal S100000x140 .f32) : FVec Ideal S100000x7 .f32 :=
  Cert.KernelIdeal.Region1.proj A (shapeCast S100000x1 (degScale (F := Ideal) (aDst m c)) shapeCasts_S100000_S100000x1)
    (shapeCast S1x140 (aB0 m c) shapeCasts_S140_S1x140) (aW1 m c)
    (shapeCast S100000x1 (degScale (F := Ideal) (aSrc m c)) shapeCasts_S100000_S100000x1)

theorem region0_out : (dat0 (V5 m ρ) c).arrAt 3 cfg0.N = kP0 m c := by
  refine (Cert.KernelIdeal.Region0.final (V5 m ρ) c).trans ?_
  show Cert.KernelIdeal.Region0.proj (W5 m ρ c (Proc.devRef .tc main_arg0)) (W5 m ρ c (Proc.devRef .tc main_arg3))
      (W5 m ρ c (Proc.devRef .tc main_v13)) = _
  rw [W5_arg0, W5_arg3, W5_v13]
  rfl

theorem region1_out (hsrc : SrcInRange (aSrc m c)) : (dat1 (V8 m ρ) c).arrAt 5 cfg1.N
    = kP1 m c (agg140 (Host.gather gather_S100000x140_S1600000x1_S1600000x140_1_0_n_n_0_1_1140 (kP0 m c)
        (wrapIdx (aSrc m c))) (aDst m c)) := by
  refine (Cert.KernelIdeal.Region1.final (V8 m ρ) c).trans ?_
  show Cert.KernelIdeal.Region1.proj (W8 m ρ c (Proc.devRef .tc main_v18)) (W8 m ρ c (Proc.devRef .tc main_v19))
      (W8 m ρ c (Proc.devRef .tc main_v21)) (W8 m ρ c (Proc.devRef .tc main_arg5))
      (W8 m ρ c (Proc.devRef .tc main_v20)) = _
  rw [W8_v18 m ρ c hsrc, W8_v19, W8_v21, W8_arg5, W8_v20, region0_out]
  rfl

/-- The kernel program's result array, from the argument arrays. -/
theorem kernel_value (hsrc : SrcInRange (aSrc m c)) :
    W12 m ρ c (Proc.devRef .tc main_v33) = kerSkel (kP0 m c) (kP1 m c) (aSrc m c) (aDst m c) (aB1 m c) := by
  rw [W12_v33 m ρ c hsrc, region1_out m ρ c hsrc]
  rfl

/-- From memories agreeing on the arguments, with the source indices in range, the reference's result is the
    kernel program's. -/
theorem value_eq (hsrc : SrcInRange (aSrc m c))
    (m' : (ℓ : Loc Cert.ReferenceIdeal.nD Cert.ReferenceIdeal.τ Cert.ReferenceIdeal.sig) → Buf (Elt Ideal) ℓ)
    (hag : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)) :
    Cert.ReferenceIdeal.Value.res_main_v67 (F := Ideal) m' c = W12 m ρ c (Proc.devRef .tc main_v33) := by
  obtain ⟨h0, h1, h2, h3, h4, h5, h6⟩ := hag
  have e0 : kP0 m c = refP0 (aX m c) (aW0 m c) (degScale (F := Ideal) (aSrc m c)) := by
    unfold kP0 refP0
    exact Cert.Bridge.proj0_eq _ _ _
  have e1 : kP1 m c = refP1 (degScale (F := Ideal) (aDst m c)) (degScale (F := Ideal) (aSrc m c)) (aB0 m c) (aW1 m c) := by
    funext A
    unfold kP1 refP1
    exact Cert.Bridge.proj1_eq A _ _ _ _
  rw [res_eq_kerSkel m' c, h0, h1, h2, h3, h4, h5, h6, kernel_value m ρ c hsrc, e0, e1]

end AtIdeal

end Cert.Final

/-! ## The claims -/

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- Both programs end at one result array: the kernel program's last boundary contents, which the reference's result
    term equals once the arguments agree and every source index is a valid row index (the precondition). -/
theorem algebraic : Cert.algebraic_KernelIdeal_ReferenceIdeal := by
  intro m ρ m' ρ' hpre hagree
  have hsrc : ∀ c, Cert.KernelIdeal.Fold.SrcInRange (Cert.KernelIdeal.Fold.aSrc m c) :=
    fun c e => Cert.PreDecode.src_range _ _ _ _ _ _ _ (hpre c) e
  refine ⟨fun c => Cert.KernelIdeal.Gen.W12 m ρ c (Proc.devRef .tc Cert.KernelIdeal.main_v33),
    Cert.KernelIdeal.RunValue.run_result m ρ, ?_⟩
  refine (θ_run Cert.ReferenceIdeal.defs _ _).mono (fun _ h c => ⟨(h c).1.trans ?_, (h c).2⟩)
    (Cert.ReferenceIdeal.Value.run (F := Ideal) m' ρ')
  exact Cert.Final.value_eq m ρ c (hsrc c) m' (hagree c)

end Cert.Proof.Claims

end
-- ==== Proof.lean ====
/-
  A two-layer graph convolution on 100000 nodes and 1600000 edges, against its plain reference.

  Both programs scale each node by (max 1 degree)^(-1/2), once by out-degree (source side) and once by in-degree
  (destination side); a layer multiplies the node features by a weight matrix, scales row r by the source scale,
  sums the rows of the edges' source nodes into their destination nodes, scales by the destination scale, adds a
  bias and takes the maximum with zero.  The kernel does the two matrix products and the scalings next to them in
  two pipelined regions, 1000 and 2000 rows at a time, with operands recast to a shorter float format before the
  product; on the extended reals a format change is the identity and a product with one contracted axis is the sum
  over that axis, on the host and in the kernel alike, so each region's array is, entry by entry, the reference's
  projection.  The rows are collected by a take in the kernel (rows whose index is out of range are filled) and by
  plain indexing in the reference (an out-of-range index is clamped): under the precondition every source index is
  a valid row index (a negative one counting from the end), the take's range test is 1 everywhere and both are the
  same gather at the same wrapped indices.  Everything else is the same operations in the same order.

  The kernel program's frame and the run of its segments are the generated ones; its result array is read back through
  the segment boundaries (KernelValue, KernelFold), the two regions' arrays are Region0 and Region1, the reference's
  projections Bridge, the precondition's index range PreDecode, and Final joins them.
-/
import proofs.«405350_j80942953660639_3_alg».proof.Defs
import proofs.«405350_j80942953660639_3_alg».proof.Proof.Gen.Kernel
import proofs.«405350_j80942953660639_3_alg».proof.Proof.Gen.Kernel.Skeleton
import proofs.«405350_j80942953660639_3_alg».proof.Proof.Gen.Kernel.Launch
import proofs.«405350_j80942953660639_3_alg».proof.Proof.Gen.Kernel.Points
import proofs.«405350_j80942953660639_3_alg».proof.Proof.Gen.Kernel.Frame
import proofs.«405350_j80942953660639_3_alg».proof.Proof.Gen.KernelIdeal
import proofs.«405350_j80942953660639_3_alg».proof.Proof.Gen.KernelIdeal.Skeleton
import proofs.«405350_j80942953660639_3_alg».proof.Proof.Gen.KernelIdeal.Launch
import proofs.«405350_j80942953660639_3_alg».proof.Proof.Gen.KernelIdeal.Points
import proofs.«405350_j80942953660639_3_alg».proof.Proof.Gen.KernelIdeal.Frame
import proofs.«405350_j80942953660639_3_alg».proof.Proof.Gen.ReferenceIdeal
import proofs.«405350_j80942953660639_3_alg».proof.Proof.Gen.Pre_finite_inputs
import proofs.«405350_j80942953660639_3_alg».proof.Proof.Gen.ReferenceIdeal.Run
import proofs.«405350_j80942953660639_3_alg».proof.Proof.Final
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic⟩

end Cert.Proof

end
